-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x8 : Shape := ⟨2, ![2097152, 8]⟩
abbrev S56x16 : Shape := ⟨2, ![56, 16]⟩
abbrev S16 : Shape := ⟨1, ![16]⟩
abbrev S16x8 : Shape := ⟨2, ![16, 8]⟩
abbrev S8 : Shape := ⟨1, ![8]⟩
abbrev S_ : Shape := ⟨0, ![]⟩

class Facts : Prop where
  bcast_S_S2097152x8 : S_.BroadcastsInDim S2097152x8 (![] : Fin 0 → Fin S2097152x8.rank)
  reducesTo_S2097152x8_S_d0_1 : S2097152x8.ReducesTo [0, 1] S_
  h_S_ : 0 < S_.numel
  bcast_S_S56x16 : S_.BroadcastsInDim S56x16 (![] : Fin 0 → Fin S56x16.rank)
  reducesTo_S56x16_S_d0_1 : S56x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S8 .f32) (main_v13 : IVec S_ 1) (main_v16 : IVec S16x8 1) : IVec S_ 1 :=
  let main_c_5 : IVec S_ 1 := constantI S_ 1 1#1
  let main_v17 : IVec S_ 1 := (fun x v => Host.reduce IntOp.andi x v reducesTo_S16x8_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S2097152x8 .f32) (main_arg1 : FVec F S56x16 .f32) (main_arg2 : FVec F S16 .f32) (main_arg3 : FVec F S16x8 .f32) (main_arg4 : FVec F S8 .f32) : IVec S_ 1 :=
  let main_v0 : FVec F S2097152x8 .f32 := Host.absf main_arg0
  let main_cst : FVec F S_ .f32 := constant S_ .f32 0x7F800000#32
  let main_v1 : FVec F S2097152x8 .f32 := broadcastInDim S2097152x8 ![] bcast_S_S2097152x8 main_cst
  let main_v2 : IVec S2097152x8 1 := cmpf .olt main_v0 main_v1
  let main_c : IVec S_ 1 := constantI S_ 1 1#1
  let main_v3 : IVec S_ 1 := (fun x v => Host.reduce IntOp.andi x v reducesTo_S2097152x8_S_d0_1 h_S_) main_v2 main_c
  let main_v4 : FVec F S56x16 .f32 := Host.absf main_arg1
  let main_cst_0 : FVec F S_ .f32 := constant S_ .f32 0x7F800000#32
  let main_v5 : FVec F S56x16 .f32 := broadcastInDim S56x16 ![] bcast_S_S56x16 main_cst_0
  let main_v6 : IVec S56x16 1 := cmpf .olt main_v4 main_v5
  let main_c_1 : IVec S_ 1 := constantI S_ 1 1#1
  let main_v7 : IVec S_ 1 := (fun x v => Host.reduce IntOp.andi x v reducesTo_S56x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x8 .f32 := Host.absf main_arg3
  let main_cst_4 : FVec F S_ .f32 := constant S_ .f32 0x7F800000#32
  let main_v15 : FVec F S16x8 .f32 := broadcastInDim S16x8 ![] bcast_S_S16x8 main_cst_4
  let main_v16 : IVec S16x8 1 := cmpf .olt main_v14 main_v15
  fn_part1 (F := F) main_arg4 main_v13 main_v16
-- ==== Kernel.lean ====
abbrev S2097152x8 : Shape := ⟨2, ![2097152, 8]⟩
abbrev S56x16 : Shape := ⟨2, ![56, 16]⟩
abbrev S16 : Shape := ⟨1, ![16]⟩
abbrev S16x8 : Shape := ⟨2, ![16, 8]⟩
abbrev S8 : Shape := ⟨1, ![8]⟩
abbrev S128x128x1024 : Shape := ⟨3, ![128, 128, 1024]⟩
abbrev S8x128x1024 : Shape := ⟨3, ![8, 128, 1024]⟩
abbrev S1x128x1024 : Shape := ⟨3, ![1, 128, 1024]⟩
abbrev S128x1024 : Shape := ⟨2, ![128, 1024]⟩
abbrev S131072x8 : Shape := ⟨2, ![131072, 8]⟩
abbrev S8x16 : Shape := ⟨2, ![8, 16]⟩
abbrev S131072x16 : Shape := ⟨2, ![131072, 16]⟩
abbrev S7x128x1024 : Shape := ⟨3, ![7, 128, 1024]⟩
abbrev S1x16 : Shape := ⟨2, ![1, 16]⟩
abbrev S1x8 : Shape := ⟨2, ![1, 8]⟩

abbrev nBuf : Space → Nat
  | .hbm => 8
  | .vmem => 12
  | .smem => 0
  | _ => 0

abbrev bufTy : (tb : Table) → Fin (tcTables nBuf tb) → BufTy
  | .hbm, ⟨0, _⟩ => ⟨S2097152x8, .f32⟩
  | .hbm, ⟨1, _⟩ => ⟨S56x16, .f32⟩
  | .hbm, ⟨2, _⟩ => ⟨S16, .f32⟩
  | .hbm, ⟨3, _⟩ => ⟨S16x8, .f32⟩
  | .hbm, ⟨4, _⟩ => ⟨S8, .f32⟩
  | .hbm, ⟨5, _⟩ => ⟨S128x128x1024, .f32⟩
  | .hbm, ⟨6, _⟩ => ⟨S128x128x1024, .f32⟩
  | .hbm, ⟨7, _⟩ => ⟨S2097152x8, .f32⟩
  | .local _ .vmem, ⟨0, _⟩ => ⟨S8x128x1024, .f32⟩
  | .local _ .vmem, ⟨1, _⟩ => ⟨S8x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S56x16, .f32⟩
  | .local _ .vmem, ⟨7, _⟩ => ⟨S16, .f32⟩
  | .local _ .vmem, ⟨8, _⟩ => ⟨S16x8, .f32⟩
  | .local _ .vmem, ⟨9, _⟩ => ⟨S8, .f32⟩
  | .local _ .vmem, ⟨10, _⟩ => ⟨S8x128x1024, .f32⟩
  | .local _ .vmem, ⟨11, _⟩ => ⟨S8x128x1024, .f32⟩
  | _, _ => ⟨S2097152x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c128_i32 : BitVec 32 := 128#32
  let c0_i32 : BitVec 32 := 0#32
  let v2 : BitVec 1 := Scalar.cmpi .eq c128_i32 c0_i32
  let c1_i32_0 : BitVec 32 := 1#32
  let v3 : BitVec 32 := Scalar.select v2 c1_i32_0 c128_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  let c0_i32_6 : BitVec 32 := 0#32
  ![v11.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.muli arg0 c8_i32
  let c8_i32_0 : BitVec 32 := 8#32
  let v1 : BitVec 32 := Scalar.addi v0 c8_i32_0
  let c128_i32 : BitVec 32 := 128#32
  let c0_i32 : BitVec 32 := 0#32
  let v2 : BitVec 1 := Scalar.cmpi .eq c128_i32 c0_i32
  let c1_i32 : BitVec 32 := 1#32
  let v3 : BitVec 32 := Scalar.select v2 c1_i32 c128_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  let c0_i32_6 : BitVec 32 := 0#32
  ![v11.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S56x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S2097152x8_S128x128x1024 : S2097152x8.ShapeCasts S128x128x1024
  inb_S8x128x1024_S8x128x1024_0_0_0 : ∀ a, (![0, 0, 0] : Fin 3 → Nat) a + S8x128x1024.size a ≤ S8x128x1024.size a
  h_S8x128x1024 : 0 < S8x128x1024.numel
  shapeCasts_S8x128x1024_S8x128x1024 : S8x128x1024.ShapeCasts S8x128x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S56x16_S56x16_0_0 : ∀ a, (![0, 0] : Fin 2 → Nat) a + S56x16.size a ≤ S56x16.size a
  h_S56x16 : 0 < S56x16.numel
  inb_S16_S16_0 : ∀ a, (![0] : Fin 1 → Nat) a + S16.size a ≤ S16.size a
  h_S16 : 0 < S16.numel
  inb_S16x8_S16x8_0_0 : ∀ a, (![0, 0] : Fin 2 → Nat) a + S16x8.size a ≤ S16x8.size a
  h_S16x8 : 0 < S16x8.numel
  inb_S8_S8_0 : ∀ a, (![0] : Fin 1 → Nat) a + S8.size a ≤ S8.size a
  h_S8 : 0 < S8.numel
  shapeCasts_S8x128x1024_S131072x8 : S8x128x1024.ShapeCasts S131072x8
  slices_S56x16_o0_0_S8x16 : S56x16.Slices ![0, 0] S8x16
  rotates_S8x128x1024_d2 : S8x128x1024.Rotates 2 none
  slices_S56x16_o8_0_S8x16 : S56x16.Slices ![8, 0] S8x16
  slices_S56x16_o16_0_S8x16 : S56x16.Slices ![16, 0] S8x16
  rotates_S8x128x1024_d1 : S8x128x1024.Rotates 1 none
  slices_S56x16_o24_0_S8x16 : S56x16.Slices ![24, 0] S8x16
  slices_S56x16_o32_0_S8x16 : S56x16.Slices ![32, 0] S8x16
  shapeCasts_S128x1024_S1x128x1024 : S128x1024.ShapeCasts S1x128x1024
  slices_S8x128x1024_o0_0_0_S7x128x1024 : S8x128x1024.Slices ![0, 0, 0] S7x128x1024
  concatenates_S1x128x1024_S7x128x1024_S8x128x1024_d0 : Shape.Concatenates [S1x128x1024, S7x128x1024] S8x128x1024 0
  slices_S56x16_o40_0_S8x16 : S56x16.Slices ![40, 0] S8x16
  slices_S8x128x1024_o1_0_0_S7x128x1024 : S8x128x1024.Slices ![1, 0, 0] S7x128x1024
  concatenates_S7x128x1024_S1x128x1024_S8x128x1024_d0 : Shape.Concatenates [S7x128x1024, S1x128x1024] S8x128x1024 0
  slices_S56x16_o48_0_S8x16 : S56x16.Slices ![48, 0] S8x16
  shapeCasts_S16_S1x16 : S16.ShapeCasts S1x16
  broadcasts_S1x16_S131072x16 : S1x16.Broadcasts S131072x16
  shapeCasts_S8_S1x8 : S8.ShapeCasts S1x8
  broadcasts_S1x8_S131072x8 : S1x8.Broadcasts S131072x8
  shapeCasts_S131072x8_S8x128x1024 : S131072x8.ShapeCasts S8x128x1024
  shapeCasts_S128x128x1024_S2097152x8 : S128x128x1024.ShapeCasts S2097152x8
  dot_S131072x8_S8x16_S131072x16_1_0_0_1_n_n_wf : DotDims.WF S131072x8 S8x16 S131072x16 [1] [0] [0] [1] [] []
  dot_S131072x16_S16x8_S131072x8_1_0_0_1_n_n_wf : DotDims.WF S131072x16 S16x8 S131072x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x1024.size a ≤ S128x128x1024.size a
  hwx0_0 : ∀ i : grid0.Coords, EltTy.bits .f32 = 32 ∨ (Rect.block (s := S128x128x1024) S8x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1024.size a ≤ S128x128x1024.size a
  hwx0_1 : ∀ i : grid0.Coords, EltTy.bits .f32 = 32 ∨ (Rect.block (s := S128x128x1024) S1x128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1024.size a ≤ S128x128x1024.size a
  hwx0_2 : ∀ i : grid0.Coords, EltTy.bits .f32 = 32 ∨ (Rect.block (s := S128x128x1024) S1x128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S56x16.size a ≤ S56x16.size a
  hwx0_3 : ∀ i : grid0.Coords, EltTy.bits .f32 = 32 ∨ (Rect.block (s := S56x16) S56x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16.size a ≤ S16.size a
  hwx0_4 : ∀ i : grid0.Coords, EltTy.bits .f32 = 32 ∨ (Rect.block (s := S16) S16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x8.size a ≤ S16x8.size a
  hwx0_5 : ∀ i : grid0.Coords, EltTy.bits .f32 = 32 ∨ (Rect.block (s := S16x8) S16x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8.size a ≤ S8.size a
  hwx0_6 : ∀ i : grid0.Coords, EltTy.bits .f32 = 32 ∨ (Rect.block (s := S8) S8.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128x1024.size a ≤ S128x128x1024.size a
  hwx0_7 : ∀ i : grid0.Coords, EltTy.bits .f32 = 32 ∨ (Rect.block (s := S128x128x1024) S8x128x1024.size (cc0_transform_7 i) (hinb0_7 i)).WholeWords (EltTy.packing .f32)

variable [Facts₀]

def dot_S131072x8_S8x16_S131072x16_1_0_0_1_n_n : DotDims S131072x8 S8x16 S131072x16 where
  lhsContracting := [1]
  rhsContracting := [0]
  lhsNonContracting := [0]
  rhsNonContracting := [1]
  lhsBatch := []
  rhsBatch := []
  wf := dot_S131072x8_S8x16_S131072x16_1_0_0_1_n_n_wf
def dot_S131072x16_S16x8_S131072x8_1_0_0_1_n_n : DotDims S131072x16 S16x8 S131072x8 where
  lhsContracting := [1]
  rhsContracting := [0]
  lhsNonContracting := [0]
  rhsNonContracting := [1]
  lhsBatch := []
  rhsBatch := []
  wf := dot_S131072x16_S16x8_S131072x8_1_0_0_1_n_n_wf

abbrev win0_0 : Pipeline.Window sig grid0 :=
  Pipeline.Window.ofSpec (Memref.whole main_v0) S8x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S56x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S16x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S8x128x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2097152x8 : Shape := ⟨2, ![2097152, 8]⟩
abbrev S56x16 : Shape := ⟨2, ![56, 16]⟩
abbrev S16 : Shape := ⟨1, ![16]⟩
abbrev S16x8 : Shape := ⟨2, ![16, 8]⟩
abbrev S8 : Shape := ⟨1, ![8]⟩
abbrev S128x128x128x8 : Shape := ⟨4, ![128, 128, 128, 8]⟩
abbrev S128x128x1x8 : Shape := ⟨4, ![128, 128, 1, 8]⟩
abbrev S128x128x127x8 : Shape := ⟨4, ![128, 128, 127, 8]⟩
abbrev S128x1x128x8 : Shape := ⟨4, ![128, 1, 128, 8]⟩
abbrev S128x127x128x8 : Shape := ⟨4, ![128, 127, 128, 8]⟩
abbrev S1x128x128x8 : Shape := ⟨4, ![1, 128, 128, 8]⟩
abbrev S127x128x128x8 : Shape := ⟨4, ![127, 128, 128, 8]⟩
abbrev S128x128x128x56 : Shape := ⟨4, ![128, 128, 128, 56]⟩
abbrev S128x128x128x16 : Shape := ⟨4, ![128, 128, 128, 16]⟩
abbrev S1x1x1x16 : Shape := ⟨4, ![1, 1, 1, 16]⟩
abbrev S1x1x1x8 : Shape := ⟨4, ![1, 1, 1, 8]⟩

abbrev nBuf : Space → Nat
  | .hbm => 35
  | .vmem => 0
  | .smem => 0
  | _ => 0

abbrev bufTy : (tb : Table) → Fin (tcTables nBuf tb) → BufTy
  | .hbm, ⟨0, _⟩ => ⟨S2097152x8, .f32⟩
  | .hbm, ⟨1, _⟩ => ⟨S56x16, .f32⟩
  | .hbm, ⟨2, _⟩ => ⟨S16, .f32⟩
  | .hbm, ⟨3, _⟩ => ⟨S16x8, .f32⟩
  | .hbm, ⟨4, _⟩ => ⟨S8, .f32⟩
  | .hbm, ⟨5, _⟩ => ⟨S128x128x128x8, .f32⟩
  | .hbm, ⟨6, _⟩ => ⟨S128x128x1x8, .f32⟩
  | .hbm, ⟨7, _⟩ => ⟨S128x128x127x8, .f32⟩
  | .hbm, ⟨8, _⟩ => ⟨S128x128x128x8, .f32⟩
  | .hbm, ⟨9, _⟩ => ⟨S128x128x127x8, .f32⟩
  | .hbm, ⟨10, _⟩ => ⟨S128x128x1x8, .f32⟩
  | .hbm, ⟨11, _⟩ => ⟨S128x128x128x8, .f32⟩
  | .hbm, ⟨12, _⟩ => ⟨S128x1x128x8, .f32⟩
  | .hbm, ⟨13, _⟩ => ⟨S128x127x128x8, .f32⟩
  | .hbm, ⟨14, _⟩ => ⟨S128x128x128x8, .f32⟩
  | .hbm, ⟨15, _⟩ => ⟨S128x127x128x8, .f32⟩
  | .hbm, ⟨16, _⟩ => ⟨S128x1x128x8, .f32⟩
  | .hbm, ⟨17, _⟩ => ⟨S128x128x128x8, .f32⟩
  | .hbm, ⟨18, _⟩ => ⟨S1x128x128x8, .f32⟩
  | .hbm, ⟨19, _⟩ => ⟨S127x128x128x8, .f32⟩
  | .hbm, ⟨20, _⟩ => ⟨S128x128x128x8, .f32⟩
  | .hbm, ⟨21, _⟩ => ⟨S127x128x128x8, .f32⟩
  | .hbm, ⟨22, _⟩ => ⟨S1x128x128x8, .f32⟩
  | .hbm, ⟨23, _⟩ => ⟨S128x128x128x8, .f32⟩
  | .hbm, ⟨24, _⟩ => ⟨S128x128x128x56, .f32⟩
  | .hbm, ⟨25, _⟩ => ⟨S128x128x128x16, .f32⟩
  | .hbm, ⟨26, _⟩ => ⟨S1x1x1x16, .f32⟩
  | .hbm, ⟨27, _⟩ => ⟨S128x128x128x16, .f32⟩
  | .hbm, ⟨28, _⟩ => ⟨S128x128x128x16, .f32⟩
  | .hbm, ⟨29, _⟩ => ⟨S128x128x128x16, .f32⟩
  | .hbm, ⟨30, _⟩ => ⟨S128x128x128x8, .f32⟩
  | .hbm, ⟨31, _⟩ => ⟨S1x1x1x8, .f32⟩
  | .hbm, ⟨32, _⟩ => ⟨S128x128x128x8, .f32⟩
  | .hbm, ⟨33, _⟩ => ⟨S128x128x128x8, .f32⟩
  | .hbm, ⟨34, _⟩ => ⟨S2097152x8, .f32⟩
  | _, _ => ⟨S2097152x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_v1 : Ref sig .tc := ⟨.hbm, 8, rfl⟩
abbrev main_call1_v0 : Ref sig .tc := ⟨.hbm, 9, rfl⟩
abbrev main_call1_v1 : Ref sig .tc := ⟨.hbm, 10, rfl⟩
abbrev main_v2 : Ref sig .tc := ⟨.hbm, 11, rfl⟩
abbrev main_call2_v0 : Ref sig .tc := ⟨.hbm, 12, rfl⟩
abbrev main_call2_v1 : Ref sig .tc := ⟨.hbm, 13, rfl⟩
abbrev main_v3 : Ref sig .tc := ⟨.hbm, 14, rfl⟩
abbrev main_call3_v0 : Ref sig .tc := ⟨.hbm, 15, rfl⟩
abbrev main_call3_v1 : Ref sig .tc := ⟨.hbm, 16, rfl⟩
abbrev main_v4 : Ref sig .tc := ⟨.hbm, 17, rfl⟩
abbrev main_call4_v0 : Ref sig .tc := ⟨.hbm, 18, rfl⟩
abbrev main_call4_v1 : Ref sig .tc := ⟨.hbm, 19, rfl⟩
abbrev main_v5 : Ref sig .tc := ⟨.hbm, 20, rfl⟩
abbrev main_call5_v0 : Ref sig .tc := ⟨.hbm, 21, rfl⟩
abbrev main_call5_v1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩

abbrev nD : Nat := 1
abbrev τ : Topo := Topo.v7x

variable {F : FTy → Type} [FloatOps F]

class Facts₀ : Prop where
  shapeCasts_S2097152x8_S128x128x128x8 : S2097152x8.ShapeCasts S128x128x128x8
  slices_S128x128x128x8_S128x128x1x8_0_0_127_0 : S128x128x128x8.Slices ![0, 0, 127, 0] S128x128x1x8
  slices_S128x128x128x8_S128x128x127x8_0_0_0_0 : S128x128x128x8.Slices ![0, 0, 0, 0] S128x128x127x8
  concatenates_S128x128x1x8_S128x128x127x8_S128x128x128x8_d2 : Shape.Concatenates [S128x128x1x8, S128x128x127x8] S128x128x128x8 2
  slices_S128x128x128x8_S128x128x127x8_0_0_1_0 : S128x128x128x8.Slices ![0, 0, 1, 0] S128x128x127x8
  slices_S128x128x128x8_S128x128x1x8_0_0_0_0 : S128x128x128x8.Slices ![0, 0, 0, 0] S128x128x1x8
  concatenates_S128x128x127x8_S128x128x1x8_S128x128x128x8_d2 : Shape.Concatenates [S128x128x127x8, S128x128x1x8] S128x128x128x8 2
  slices_S128x128x128x8_S128x1x128x8_0_127_0_0 : S128x128x128x8.Slices ![0, 127, 0, 0] S128x1x128x8
  slices_S128x128x128x8_S128x127x128x8_0_0_0_0 : S128x128x128x8.Slices ![0, 0, 0, 0] S128x127x128x8
  concatenates_S128x1x128x8_S128x127x128x8_S128x128x128x8_d1 : Shape.Concatenates [S128x1x128x8, S128x127x128x8] S128x128x128x8 1
  slices_S128x128x128x8_S128x127x128x8_0_1_0_0 : S128x128x128x8.Slices ![0, 1, 0, 0] S128x127x128x8
  slices_S128x128x128x8_S128x1x128x8_0_0_0_0 : S128x128x128x8.Slices ![0, 0, 0, 0] S128x1x128x8
  concatenates_S128x127x128x8_S128x1x128x8_S128x128x128x8_d1 : Shape.Concatenates [S128x127x128x8, S128x1x128x8] S128x128x128x8 1
  slices_S128x128x128x8_S1x128x128x8_127_0_0_0 : S128x128x128x8.Slices ![127, 0, 0, 0] S1x128x128x8
  slices_S128x128x128x8_S127x128x128x8_0_0_0_0 : S128x128x128x8.Slices ![0, 0, 0, 0] S127x128x128x8
  concatenates_S1x128x128x8_S127x128x128x8_S128x128x128x8_d0 : Shape.Concatenates [S1x128x128x8, S127x128x128x8] S128x128x128x8 0
  slices_S128x128x128x8_S127x128x128x8_1_0_0_0 : S128x128x128x8.Slices ![1, 0, 0, 0] S127x128x128x8
  slices_S128x128x128x8_S1x128x128x8_0_0_0_0 : S128x128x128x8.Slices ![0, 0, 0, 0] S1x128x128x8
  concatenates_S127x128x128x8_S1x128x128x8_S128x128x128x8_d0 : Shape.Concatenates [S127x128x128x8, S1x128x128x8] S128x128x128x8 0
  concatenates_S128x128x128x8_S128x128x128x8_S128x128x128x8_S128x128x128x8_S128x128x128x8_S128x128x128x8_S128x128x128x8_S128x128x128x56_d3 : Shape.Concatenates [S128x128x128x8, S128x128x128x8, S128x128x128x8, S128x128x128x8, S128x128x128x8, S128x128x128x8, S128x128x128x8] S128x128x128x56 3
  bcast_S16_S1x1x1x16_3 : S16.BroadcastsInDim S1x1x1x16 (![3] : Fin 1 → Fin S1x1x1x16.rank)
  bcast_S1x1x1x16_S128x128x128x16_0_1_2_3 : S1x1x1x16.BroadcastsInDim S128x128x128x16 (![0, 1, 2, 3] : Fin 4 → Fin S128x128x128x16.rank)
  bcast_S8_S1x1x1x8_3 : S8.BroadcastsInDim S1x1x1x8 (![3] : Fin 1 → Fin S1x1x1x8.rank)
  bcast_S1x1x1x8_S128x128x128x8_0_1_2_3 : S1x1x1x8.BroadcastsInDim S128x128x128x8 (![0, 1, 2, 3] : Fin 4 → Fin S128x128x128x8.rank)
  shapeCasts_S128x128x128x8_S2097152x8 : S128x128x128x8.ShapeCasts S2097152x8
  dot_S128x128x128x56_S56x16_S128x128x128x16_3_0_012_1_n_n_wf : DotDims.WF S128x128x128x56 S56x16 S128x128x128x16 [3] [0] [0, 1, 2] [1] [] []
  dot_S128x128x128x16_S16x8_S128x128x128x8_3_0_012_1_n_n_wf : DotDims.WF S128x128x128x16 S16x8 S128x128x128x8 [3] [0] [0, 1, 2] [1] [] []

variable [Facts₀]

def dot_S128x128x128x56_S56x16_S128x128x128x16_3_0_012_1_n_n : DotDims S128x128x128x56 S56x16 S128x128x128x16 where
  lhsContracting := [3]
  rhsContracting := [0]
  lhsNonContracting := [0, 1, 2]
  rhsNonContracting := [1]
  lhsBatch := []
  rhsBatch := []
  wf := dot_S128x128x128x56_S56x16_S128x128x128x16_3_0_012_1_n_n_wf
def dot_S128x128x128x16_S16x8_S128x128x128x8_3_0_012_1_n_n : DotDims S128x128x128x16 S16x8 S128x128x128x8 where
  lhsContracting := [3]
  rhsContracting := [0]
  lhsNonContracting := [0, 1, 2]
  rhsNonContracting := [1]
  lhsBatch := []
  rhsBatch := []
  wf := dot_S128x128x128x16_S16x8_S128x128x128x8_3_0_012_1_n_n_wf

class Facts : Prop extends Facts₀ where

variable [Facts]
-- ==== Proof.K.Body.lean ====
/-
  The kernel body as a pure function of what it loads, and its triple.

  At one grid point the body loads a slab of 8 lattice planes (`x0`), the plane just below the slab (`xp`), the
  plane just above it (`xn`), the two weight matrices and the two bias vectors, and stores ONE value over the whole
  output block: the update of every site of the slab. Nothing else is written, and the loaded buffers are left as found.
-/
import proofs.«423289_j38293928411137_4_alg».proof.Proof.Gen.Kernel.Launch
import proofs.«423289_j38293928411137_4_alg».proof.Proof.Gen.Kernel.Skeleton
import proofs.«423289_j38293928411137_4_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Stencil

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The whole-buffer rectangles the body loads and stores through. -/
abbrev rSlab : Rect S8x128x1024 := Rect.unit (s := S8x128x1024) ![0, 0, 0] S8x128x1024.size inb_S8x128x1024_S8x128x1024_0_0_0
abbrev rPlane : Rect S1x128x1024 := Rect.unit (s := S1x128x1024) ![0, 0, 0] S1x128x1024.size inb_S1x128x1024_S1x128x1024_0_0_0
abbrev rW1 : Rect S56x16 := Rect.unit (s := S56x16) ![0, 0] S56x16.size inb_S56x16_S56x16_0_0
abbrev rB1 : Rect S16 := Rect.unit (s := S16) ![0] S16.size inb_S16_S16_0
abbrev rW2 : Rect S16x8 := Rect.unit (s := S16x8) ![0, 0] S16x8.size inb_S16x8_S16x8_0_0
abbrev rB2 : Rect S8 := Rect.unit (s := S8) ![0] S8.size inb_S8_S8_0

/-- What the body stores, from the seven values it loads. -/
def stored (x0 : Vec F S8x128x1024 .f32) (xp xn : Vec F S1x128x1024 .f32) (w1 : Vec F S56x16 .f32) (b1 : Vec F S16 .f32)
    (w2 : Vec F S16x8 .f32) (b2 : Vec F S8 .f32) : Vec F S8x128x1024 .f32 :=
  k0_pay1 (k0_pay2 x0) (k0_pay3 xn) w1 b1 w2 b2 (k0_pay4 x0 w1) (k0_pay5 xp) (k0_pay6 x0)

/-- The output buffer after the body: its one store, over the whole buffer, of `stored` of the loaded buffers. -/
def outBlock (x0 : Vec F S8x128x1024 .f32) (xp xn : Vec F S1x128x1024 .f32) (w1 : Vec F S56x16 .f32) (b1 : Vec F S16 .f32)
    (w2 : Vec F S16x8 .f32) (b2 : Vec F S8 .f32) : Vec F S8x128x1024 .f32 :=
  View.canon [⟨rSlab, stored (View.ld x0 rSlab) (View.ld xp rPlane) (View.ld xn rPlane) (View.ld w1 rW1) (View.ld b1 rB1)
    (View.ld w2 rW2) (View.ld b2 rB2)⟩]

/-- The one store covers the buffer. -/
theorem cover_out (p0 : Vec F S8x128x1024 .f32) (y : S8x128x1024.Idx) :
    ∃ pc ∈ ([⟨rSlab, p0⟩] : List (View.Piece (Elt F) S8x128x1024 .f32)), y ∈ pc.1.set :=
  View.cover_of_tiled [⟨rSlab, p0⟩] S8x128x1024.size (by rfl) y

set_option maxHeartbeats 1000000 in
/-- The body on whole staging memrefs — the seven inputs' at contents `x0 … b2`, the output's at anything — runs to
    the continuation with the inputs' as they were and the output's at `outBlock` of them. -/
theorem sound_kernel (c : Dev nD) (E : Set ℕ) (i : grid0.Coords)
    (arg1 : Memref sig .tc .vmem S8x128x1024 .f32) (harg1 : arg1.IsWhole) (arg2 : Memref sig .tc .vmem S1x128x1024 .f32) (harg2 : arg2.IsWhole)
    (arg3 : Memref sig .tc .vmem S1x128x1024 .f32) (harg3 : arg3.IsWhole) (arg4 : Memref sig .tc .vmem S56x16 .f32) (harg4 : arg4.IsWhole)
    (arg5 : Memref sig .tc .vmem S16 .f32) (harg5 : arg5.IsWhole) (arg6 : Memref sig .tc .vmem S16x8 .f32) (harg6 : arg6.IsWhole)
    (arg7 : Memref sig .tc .vmem S8 .f32) (harg7 : arg7.IsWhole) (arg8 : Memref sig .tc .vmem S8x128x1024 .f32) (harg8 : arg8.IsWhole)
    (x0 : Vec F S8x128x1024 .f32) (xp xn : Vec F S1x128x1024 .f32) (w1 : Vec F S56x16 .f32) (b1 : Vec F S16 .f32)
    (w2 : Vec F S16x8 .f32) (b2 : Vec F S8 .f32) (K : PUnit → sProp 𝕄) :
    iprop(owns (c : Thread nD τ) arg1 fullShare x0 ∗ owns (c : Thread nD τ) arg2 fullShare xp ∗ owns (c : Thread nD τ) arg3 fullShare xn
        ∗ owns (c : Thread nD τ) arg4 fullShare w1 ∗ owns (c : Thread nD τ) arg5 fullShare b1 ∗ owns (c : Thread nD τ) arg6 fullShare w2
        ∗ owns (c : Thread nD τ) arg7 fullShare b2 ∗ (∃ d, owns (c : Thread nD τ) arg8 fullShare d)
        ∗ (iprop(owns (c : Thread nD τ) arg1 fullShare x0 ∗ owns (c : Thread nD τ) arg2 fullShare xp ∗ owns (c : Thread nD τ) arg3 fullShare xn
            ∗ owns (c : Thread nD τ) arg4 fullShare w1 ∗ owns (c : Thread nD τ) arg5 fullShare b1 ∗ owns (c : Thread nD τ) arg6 fullShare w2
            ∗ owns (c : Thread nD τ) arg7 fullShare b2 ∗ owns (c : Thread nD τ) arg8 fullShare (outBlock x0 xp xn w1 b1 w2 b2)) -∗ K ⟨⟩))
      ⊢ wp frame (wpE (defs₀ (F := F)) Variants.none c none) E
          (cc0__kernel i arg1 harg1 arg2 harg2 arg3 harg3 arg4 harg4 arg5 harg5 arg6 harg6 arg7 harg7 arg8 harg8) K := by
  simp only [cc0__kernel_eq_skeleton]; unfold cc0__kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover_out _)

end Cert.Kernel.Stencil

end
-- ==== Proof.K.Data.lean ====
/-
  The proof data of the one pipeline, and the body obligation at every grid point.

  The region is entered after @main has re-laid `states` as 128 planes of 128 × 1024 numbers. The three lattice
  windows read that ONE array — the slab of 8 planes, the plane below it and the plane above it (indices modulo
  128) — so its full share is dealt among them in three parts; the four parameter windows and the output window hold
  their arrays whole. After the body every input buffer still holds its block and the output buffer holds
  `outBlock` of the seven input blocks. Nothing is carried from point to point.
-/
import proofs.«423289_j38293928411137_4_alg».proof.Proof.K.Body

set_option maxRecDepth 16384

noncomputable section

namespace Cert.Kernel.Stencil

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers when the region is entered: the launch contents after the re-laying of `states`. -/
abbrev V0 (c : Dev nD) : Valuation τ sig (Elt F) := StableHlo.after (List.flatten [hostOps0]) (fun b => m (c, b))

abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock (iblk m c 0 t) (iblk m c 1 t) (iblk m c 2 t) (iblk m c 3 t) (iblk m c 4 t) (iblk m c 5 t) (iblk m c 6 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right.left
    | ⟨2, _⟩ => fullShare.right.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t
    = outBlock (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)

/-! ## The body obligation

Each input's current staging buffer holds its block at every point, fetched there or not (the lemmas above): unfetched,
the index has not moved since the last fetch, and the body left the block in place. -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation (c : Dev nD) : BodyObligation (dats (F := F) m 0 c) (defs₀ (F := F)) Variants.none () Set.univ := fun t => by
  rw [bigSep_W0, bigSep_W0]
  exact sound_body m c t

end Cert.Kernel.Stencil

end
-- ==== Proof.K.Launch.lean ====
/-
  The run of @main: the re-laying of `states`, the region, the re-laying of the result.

  The three lattice windows read ONE array, so the launch is the form that lets windows share arrays: the array's full
  share is dealt among the three windows at entry (a half and two quarters) and the same three parts are handed back
  at the exit. The result's re-laying runs after the region on the output array and a fresh buffer; at the end the
  result buffer holds the output window's final array re-laid as rows of 8, and every argument is as launched.
-/
import proofs.«423289_j38293928411137_4_alg».proof.Proof.K.Data
import Idealize.ShloMosaic.Lib.Pipeline.FrameSuffix
import Idealize.ShloMosaic.Lib.StableHlo.Run

set_option maxRecDepth 16384

noncomputable section

namespace Cert.Kernel.Stencil

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the result's re-laying, the buffers at `V` when the region is entered. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The shared array dealt among its windows -/

/-- The distinct buffers behind the windows' arrays, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_arg1) ↦{fullShare} W main_arg1)
          ∗ (((c : Thread nD τ).loc main_arg2) ↦{fullShare} W main_arg2) ∗ (((c : Thread nD τ).loc main_arg3) ↦{fullShare} W main_arg3)
          ∗ (((c : Thread nD τ).loc main_arg4) ↦{fullShare} W main_arg4) ∗ (((c : Thread nD τ).loc main_v1) ↦{fullShare} W main_v1)) := by
  unfold Pipeline.arrBufs
  exact bigSep_eq_bigSepL_of_eq [main_v0, main_arg1, main_arg2, main_arg3, main_arg4, main_v1] (by decide) (by decide) _

/-- The share each window holds its array at: the shared array's three parts, and the others whole. -/
theorem share_0 (c : Dev nD) : (dats m 0 c).share 0 = fullShare.left := rfl
theorem share_1 (c : Dev nD) : (dats m 0 c).share 1 = fullShare.right.left := rfl
theorem share_2 (c : Dev nD) : (dats m 0 c).share 2 = fullShare.right.right := rfl
theorem share_3 (c : Dev nD) : (dats m 0 c).share 3 = fullShare := rfl
theorem share_4 (c : Dev nD) : (dats m 0 c).share 4 = fullShare := rfl
theorem share_5 (c : Dev nD) : (dats m 0 c).share 5 = fullShare := rfl
theorem share_6 (c : Dev nD) : (dats m 0 c).share 6 = fullShare := rfl
theorem share_7 (c : Dev nD) : (dats m 0 c).share 7 = fullShare := rfl

/-- The windows' arrays, one by one, each at its share. -/
theorem arrays_eq (c : Dev nD) (G : (w : Fin cfg0.W) → Buf (Elt F) ((cfg0.win w).arr.view.loc (c.tc : Thread nD τ))) :
    ((dats m 0 c).arrays G : sProp 𝕄)
      = iprop((((c : Thread nD τ).loc main_v0) ↦{fullShare.left} G 0) ∗ (((c : Thread nD τ).loc main_v0) ↦{fullShare.right.left} G 1)
          ∗ (((c : Thread nD τ).loc main_v0) ↦{fullShare.right.right} G 2) ∗ (((c : Thread nD τ).loc main_arg1) ↦{fullShare} G 3)
          ∗ (((c : Thread nD τ).loc main_arg2) ↦{fullShare} G 4) ∗ (((c : Thread nD τ).loc main_arg3) ↦{fullShare} G 5)
          ∗ (((c : Thread nD τ).loc main_arg4) ↦{fullShare} G 6) ∗ (((c : Thread nD τ).loc main_v1) ↦{fullShare} G 7)) := by
  unfold Dat.arrays
  have h1 : (bigSep Finset.univ fun w : Fin cfg0.W =>
        ((cfg0.win w).arr.view.loc (c.tc : Thread nD τ) ↦[(cfg0.win w).arr.view.set]{(dats m 0 c).share w} G w : sProp 𝕄))
      = bigSep Finset.univ fun w : Fin cfg0.W =>
        (((c.tc : Thread nD τ).loc (Pipeline.arrRef spec0 w)) ↦{(dats m 0 c).share w} G w : sProp 𝕄) :=
    bigSep_congr fun w _ => by rw [(arr_whole0 w).set_eq_univ]
  rw [h1, bigSep_W0, share_0, share_1, share_2, share_3, share_4, share_5, share_6, share_7]

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq]
  iintro ⟨Hv0, Ha1, Ha2, Ha3, Ha4, Hv1⟩
  ihave H := (pointsTo_share (PosShare.mem_left_op_right fullShare)).1 $$ Hv0
  icases H with ⟨Hl, Hr⟩
  ihave H := (pointsTo_share (PosShare.mem_left_op_right fullShare.right)).1 $$ Hr
  icases H with ⟨Hrl, Hrr⟩
  isplitl [Hl]; · iexact Hl
  isplitl [Hrl]; · iexact Hrl
  isplitl [Hrr]; · iexact Hrr
  isplitl [Ha1]; · iexact Ha1
  isplitl [Ha2]; · iexact Ha2
  isplitl [Ha3]; · iexact Ha3
  isplitl [Ha4]; · iexact Ha4
  iexact Hv1

/-! ## The result's re-laying, after the region -/

/-- The two buffers the re-laying touches: the output array and the result buffer. -/
abbrev tailSet : Finset (DevRef τ sig) := {Proc.devRef .tc main_v1, Proc.devRef .tc main_v2}

theorem hostOps1_in : ∀ op ∈ (hostOps1 : List (HloOp τ sig (Elt F))), op.bufs ⊆ (tailSet : Finset (DevRef τ sig)) := by
  intro op hop
  simp only [hostOps1, List.mem_cons, List.mem_nil_iff, or_false] at hop
  subst hop
  rw [StableHlo.reshape_bufs]

theorem v1_ne_v2 : (Proc.devRef .tc main_v1 : DevRef τ sig) ∉ ({Proc.devRef .tc main_v2} : Finset (DevRef τ sig)) := by
  rw [Finset.mem_singleton]; exact StableHlo.devRef_ne_of_ne (by decide)

/-- The two buffers held at a valuation, one by one. -/
theorem held_tail (c : Dev nD) (W : Valuation τ sig (Elt F)) :
    (StableHlo.held (c.tc : Thread nD τ) tailSet W : sProp 𝕄)
      = iprop((((c.tc : Thread nD τ).1, (Proc.devRef .tc main_v1 : DevRef τ sig)) ↦{fullShare} W (Proc.devRef .tc main_v1))
          ∗ (((c.tc : Thread nD τ).1, (Proc.devRef .tc main_v2 : DevRef τ sig)) ↦{fullShare} W (Proc.devRef .tc main_v2))) := by
  unfold StableHlo.held
  rw [bigSep_insert v1_ne_v2, bigSep_singleton]
  rfl

/-- The buffers when the region is left: the output array as the last point left it, every other buffer as the region
    found it. -/
def Vexit (c : Dev nD) : Valuation τ sig (Elt F) :=
  Function.update (V0 m c) (Proc.devRef .tc main_v1) ((dats m 0 c).arrAt 7 cfg0.N)

/-- The buffers at the end of @main. -/
abbrev Vend (c : Dev nD) (b : Ref sig .tc) : Buf (Elt F) ((c : Thread nD τ).loc b) :=
  StableHlo.after hostOps1 (Vexit m c) (Proc.devRef .tc b)

theorem Vexit_v1 (c : Dev nD) : Vexit m c (Proc.devRef .tc main_v1) = (dats m 0 c).arrAt 7 cfg0.N := by
  unfold Vexit; exact Function.update_self ..

theorem Vexit_of_ne (c : Dev nD) (b : Ref sig .tc) (hb : b ≠ main_v1) : Vexit m c (Proc.devRef .tc b) = V m c b := by
  unfold Vexit; exact Function.update_of_ne (fun e => hb (Proc.devRef_injective _ e)) ..

/-- The re-laying leaves the output array alone, -/
theorem Vend_v1 (c : Dev nD) : Vend m c main_v1 = (dats m 0 c).arrAt 7 cfg0.N :=
  (StableHlo.after_of_forall_not_mem (b := Proc.devRef .tc main_v1) _ _ (List.forall_iff_forall_mem.mp (by
    simp only [hostOps1, List.Forall, StableHlo.reshape_writes, Finset.mem_singleton]
    exact StableHlo.devRef_ne_of_ne (by decide)))).trans (Vexit_v1 m c)

/-- writes the result buffer, -/
theorem Vend_v2 (c : Dev nD) :
    Vend m c main_v2 = shapeCast S2097152x8 ((dats m 0 c).arrAt 7 cfg0.N) shapeCasts_S128x128x1024_S2097152x8 := by
  show StableHlo.after hostOps1 (Vexit m c) (Proc.devRef .tc main_v2) = _
  after_results
  rw [Vexit_v1]
  rfl

/-- and leaves every other buffer as the region found it. -/
theorem Vend_of_ne (c : Dev nD) (b : Ref sig .tc) (h1 : b ≠ main_v1) (h2 : b ≠ main_v2) : Vend m c b = V m c b :=
  (StableHlo.after_of_forall_not_mem (b := Proc.devRef .tc b) _ _ (List.forall_iff_forall_mem.mp (by
    simp only [hostOps1, List.Forall, StableHlo.reshape_writes, Finset.mem_singleton]
    exact StableHlo.devRef_ne_of_ne h2))).trans (Vexit_of_ne m c b h1)

/-- The region finds every argument but `states`'s re-laid copy as launched. -/
theorem V_of_ne (c : Dev nD) (b : Ref sig .tc) (h : b ≠ main_v0) : V m c b = m ((c : Thread nD τ).loc b) :=
  StableHlo.after_of_forall_not_mem (b := Proc.devRef .tc b) _ _ (List.forall_iff_forall_mem.mp (by
    simp only [hostOps0, List.flatten_cons, List.flatten_nil, List.append_nil, List.Forall, StableHlo.reshape_writes, Finset.mem_singleton]
    exact StableHlo.devRef_ne_of_ne h))

/-! ## The launch -/

/-- The core's scoped buffers that are no staging buffer: all the invariant holds. -/
abbrev restOf (c : Dev nD) : sProp 𝕄 :=
  Pipeline.scopedRest (Ix := Unit) (Name := ℕ) (U := UR sig nD τ) (Lvl := ℕ) (Val := Elt F) spec0 c

/-- The re-laying after the region: from the region's exit it runs within the output array and the result buffer, and
    hands back the arrays as the region left them and the two other buffers at the end's contents. -/
theorem htail (c : Dev nD) (Q' : PUnit → sProp 𝕄) :
    iprop((iprop((dats m 0 c).arrays ((dats m 0 c).arrAt · cfg0.N)
              ∗ Pipeline.unscopedRest (Ix := Unit) (Name := ℕ) (U := UR sig nD τ) (Lvl := ℕ) spec0 c (Vend m c)) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (fun p => (cfgs p).toPCfg (Val := Elt F)) defs₀) (Variants.lift Variants.none) (c.tc : Thread nD τ) none) Set.univ
          (Pipeline.chain [StableHlo.seq hostOps1]) Q' := by
  have hseq := Pipeline.wp_seqs_then (fun p => (cfgs p).toPCfg (Val := Elt F)) defs₀ Variants.none c tailSet [] (K := Q') [hostOps1]
    (fun ops hops op hop => by rw [List.mem_singleton] at hops; subst hops; exact hostOps1_in op hop)
    (fun ops hops op hop => by rw [List.mem_singleton] at hops; subst hops; exact (List.forall_iff_forall_mem.mp hostOps1_fresh) op hop)
    (Vexit m c)
  simp only [List.flatten_cons, List.flatten_nil, List.append_nil, List.map_cons, List.map_nil] at hseq
  rw [held_tail, held_tail, Vexit_v1, Vexit_of_ne m c main_v2 (by decide),
    show StableHlo.after hostOps1 (Vexit m c) (Proc.devRef .tc main_v1) = (dats m 0 c).arrAt 7 cfg0.N from Vend_v1 m c] at hseq
  rw [arrays_eq, unscopedRest0_eq, unscopedRest0_eq, Vend_of_ne m c main_arg0 (by decide) (by decide)]
  iintro ⟨Hk, Hbd, ⟨A0, A1, A2, A3, A4, A5, A6, A7⟩, ⟨Z0, Z2⟩⟩
  iapply hseq $$ [Hbd A7 Z2]
  · isplitl [Hbd]; · iexact Hbd
    isplitl [A7]; · iexact A7
    iexact Z2
  iintro ⟨Hbd, H1, H2⟩
  rw [Pipeline.chain_nil, wp_pure]; imodintro
  iapply Hk
  isplitl [A0 A1 A2 A3 A4 A5 A6 H1]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact H1
  isplitl [Z0]; · iexact Z0
  iexact H2

set_option backward.isDefEq.respectTransparency.types false in
/-- At the compiled mesh, for any values, from any memory with zero counters: every weakly fair execution of @main
    terminates, nothing faulting; at the end the result buffer holds the output window's array, as the last point left
    it, re-laid as rows of 8, and the five arguments are as launched. -/
theorem run_main : θ_run defs (onTc (τ := τ) (main (F := F))) ⟨m, fun _ => 0, ρ⟩ (fun r => ∀ c : Dev nD,
      r.2.mem ((c.tc : Thread nD τ).loc main_v2)
        = shapeCast S2097152x8 ((dats m 0 c).arrAt 7 cfg0.N) shapeCasts_S128x128x1024_S2097152x8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_region_noSem_pf_tail (fun p => (cfgs p).toPCfg (Val := Elt F)) (fun p => (cfgs p).toPCfg_adm) (dats m) () cellOf_inj (0 : Fin 1)
    winFacts₀0 (Pipeline.PreFacts.none _) emb₁ defs₀ Variants.none m ρ main (fun _ => Pipeline.chain [StableHlo.seq hostOps1])
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m) (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (Vend m c))
    (hX := fun c => by
      rw [Pipeline.unscopedRestP_none]
      iintro H; isplitr; · iempintro
      iexact H)
    (hin := fun c => by
      show iprop(_ ∗ _ ∗ restOf c) ⊢ restOf c
      iintro ⟨-, -, HR⟩; iexact HR)
    (hout := fun c => by
      show restOf c ⊢ iprop(_ ∗ restOf c)
      iintro HR; isplitr; · iempintro
      iexact HR)
    (htail := htail m)
    (QY := fun c s => ∀ b ∈ Pipeline.restRefs sig spec0, s.mem ((c.tc : Thread nD τ).loc b) = Vend m c b)
    (hY := fun c s' => by
      iintro ⟨-, HU, HSI⟩
      unfold Pipeline.unscopedRest
      imodintro
      iapply (pointsTo_read_all (Pipeline.restRefs sig spec0) (fun b => (c.tc : Thread nD τ).loc b) (Vend m c) s')
      isplitl [HU] <;> iassumption)
    (hQ := fun s h c => by
      obtain ⟨harr, -, hrest⟩ := h c
      refine ⟨?_, ?_, ?_, ?_, ?_, ?_⟩
      · exact (hrest main_v2 (Pipeline.mem_restRefs_of main_v2 rfl (by decide))).trans (Vend_v2 m c)
      · exact (hrest main_arg0 (Pipeline.mem_restRefs_of main_arg0 rfl (by decide))).trans
          ((Vend_of_ne m c main_arg0 (by decide) (by decide)).trans (V_of_ne m c main_arg0 (by decide)))
      · exact (harr 3).trans (((dats m 0 c).arrAt_in 3 rfl _).trans ((A_eq m c 3).trans (V_of_ne m c main_arg1 (by decide))))
      · exact (harr 4).trans (((dats m 0 c).arrAt_in 4 rfl _).trans ((A_eq m c 4).trans (V_of_ne m c main_arg2 (by decide))))
      · exact (harr 5).trans (((dats m 0 c).arrAt_in 5 rfl _).trans ((A_eq m c 5).trans (V_of_ne m c main_arg3 (by decide))))
      · exact (harr 6).trans (((dats m 0 c).arrAt_in 6 rfl _).trans ((A_eq m c 6).trans (V_of_ne m c main_arg4 (by decide)))))

end Cert.Kernel.Stencil

end
-- ==== Proof.KI.Body.lean ====
/-
  The kernel body as a pure function of what it loads, and its triple.

  At one grid point the body loads a slab of 8 lattice planes (`x0`), the plane just below the slab (`xp`), the
  plane just above it (`xn`), the two weight matrices and the two bias vectors, and stores ONE value over the whole
  output block: the update of every site of the slab. Nothing else is written, and the loaded buffers are left as found.
-/
import proofs.«423289_j38293928411137_4_alg».proof.Proof.Gen.KernelIdeal.Launch
import proofs.«423289_j38293928411137_4_alg».proof.Proof.Gen.KernelIdeal.Skeleton
import proofs.«423289_j38293928411137_4_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Stencil

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The whole-buffer rectangles the body loads and stores through. -/
abbrev rSlab : Rect S8x128x1024 := Rect.unit (s := S8x128x1024) ![0, 0, 0] S8x128x1024.size inb_S8x128x1024_S8x128x1024_0_0_0
abbrev rPlane : Rect S1x128x1024 := Rect.unit (s := S1x128x1024) ![0, 0, 0] S1x128x1024.size inb_S1x128x1024_S1x128x1024_0_0_0
abbrev rW1 : Rect S56x16 := Rect.unit (s := S56x16) ![0, 0] S56x16.size inb_S56x16_S56x16_0_0
abbrev rB1 : Rect S16 := Rect.unit (s := S16) ![0] S16.size inb_S16_S16_0
abbrev rW2 : Rect S16x8 := Rect.unit (s := S16x8) ![0, 0] S16x8.size inb_S16x8_S16x8_0_0
abbrev rB2 : Rect S8 := Rect.unit (s := S8) ![0] S8.size inb_S8_S8_0

/-- What the body stores, from the seven values it loads. -/
def stored (x0 : Vec F S8x128x1024 .f32) (xp xn : Vec F S1x128x1024 .f32) (w1 : Vec F S56x16 .f32) (b1 : Vec F S16 .f32)
    (w2 : Vec F S16x8 .f32) (b2 : Vec F S8 .f32) : Vec F S8x128x1024 .f32 :=
  k0_pay1 (k0_pay2 x0) (k0_pay3 xn) w1 b1 w2 b2 (k0_pay4 x0 w1) (k0_pay5 xp) (k0_pay6 x0)

/-- The output buffer after the body: its one store, over the whole buffer, of `stored` of the loaded buffers. -/
def outBlock (x0 : Vec F S8x128x1024 .f32) (xp xn : Vec F S1x128x1024 .f32) (w1 : Vec F S56x16 .f32) (b1 : Vec F S16 .f32)
    (w2 : Vec F S16x8 .f32) (b2 : Vec F S8 .f32) : Vec F S8x128x1024 .f32 :=
  View.canon [⟨rSlab, stored (View.ld x0 rSlab) (View.ld xp rPlane) (View.ld xn rPlane) (View.ld w1 rW1) (View.ld b1 rB1)
    (View.ld w2 rW2) (View.ld b2 rB2)⟩]

/-- The one store covers the buffer. -/
theorem cover_out (p0 : Vec F S8x128x1024 .f32) (y : S8x128x1024.Idx) :
    ∃ pc ∈ ([⟨rSlab, p0⟩] : List (View.Piece (Elt F) S8x128x1024 .f32)), y ∈ pc.1.set :=
  View.cover_of_tiled [⟨rSlab, p0⟩] S8x128x1024.size (by rfl) y

set_option maxHeartbeats 1000000 in
/-- The body on whole staging memrefs — the seven inputs' at contents `x0 … b2`, the output's at anything — runs to
    the continuation with the inputs' as they were and the output's at `outBlock` of them. -/
theorem sound_kernel (c : Dev nD) (E : Set ℕ) (i : grid0.Coords)
    (arg1 : Memref sig .tc .vmem S8x128x1024 .f32) (harg1 : arg1.IsWhole) (arg2 : Memref sig .tc .vmem S1x128x1024 .f32) (harg2 : arg2.IsWhole)
    (arg3 : Memref sig .tc .vmem S1x128x1024 .f32) (harg3 : arg3.IsWhole) (arg4 : Memref sig .tc .vmem S56x16 .f32) (harg4 : arg4.IsWhole)
    (arg5 : Memref sig .tc .vmem S16 .f32) (harg5 : arg5.IsWhole) (arg6 : Memref sig .tc .vmem S16x8 .f32) (harg6 : arg6.IsWhole)
    (arg7 : Memref sig .tc .vmem S8 .f32) (harg7 : arg7.IsWhole) (arg8 : Memref sig .tc .vmem S8x128x1024 .f32) (harg8 : arg8.IsWhole)
    (x0 : Vec F S8x128x1024 .f32) (xp xn : Vec F S1x128x1024 .f32) (w1 : Vec F S56x16 .f32) (b1 : Vec F S16 .f32)
    (w2 : Vec F S16x8 .f32) (b2 : Vec F S8 .f32) (K : PUnit → sProp 𝕄) :
    iprop(owns (c : Thread nD τ) arg1 fullShare x0 ∗ owns (c : Thread nD τ) arg2 fullShare xp ∗ owns (c : Thread nD τ) arg3 fullShare xn
        ∗ owns (c : Thread nD τ) arg4 fullShare w1 ∗ owns (c : Thread nD τ) arg5 fullShare b1 ∗ owns (c : Thread nD τ) arg6 fullShare w2
        ∗ owns (c : Thread nD τ) arg7 fullShare b2 ∗ (∃ d, owns (c : Thread nD τ) arg8 fullShare d)
        ∗ (iprop(owns (c : Thread nD τ) arg1 fullShare x0 ∗ owns (c : Thread nD τ) arg2 fullShare xp ∗ owns (c : Thread nD τ) arg3 fullShare xn
            ∗ owns (c : Thread nD τ) arg4 fullShare w1 ∗ owns (c : Thread nD τ) arg5 fullShare b1 ∗ owns (c : Thread nD τ) arg6 fullShare w2
            ∗ owns (c : Thread nD τ) arg7 fullShare b2 ∗ owns (c : Thread nD τ) arg8 fullShare (outBlock x0 xp xn w1 b1 w2 b2)) -∗ K ⟨⟩))
      ⊢ wp frame (wpE (defs₀ (F := F)) Variants.none c none) E
          (cc0__kernel i arg1 harg1 arg2 harg2 arg3 harg3 arg4 harg4 arg5 harg5 arg6 harg6 arg7 harg7 arg8 harg8) K := by
  simp only [cc0__kernel_eq_skeleton]; unfold cc0__kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover_out _)

end Cert.KernelIdeal.Stencil

end
-- ==== Proof.KI.Data.lean ====
/-
  The proof data of the one pipeline, and the body obligation at every grid point.

  The region is entered after @main has re-laid `states` as 128 planes of 128 × 1024 numbers. The three lattice
  windows read that ONE array — the slab of 8 planes, the plane below it and the plane above it (indices modulo
  128) — so its full share is dealt among them in three parts; the four parameter windows and the output window hold
  their arrays whole. After the body every input buffer still holds its block and the output buffer holds
  `outBlock` of the seven input blocks. Nothing is carried from point to point.
-/
import proofs.«423289_j38293928411137_4_alg».proof.Proof.KI.Body

set_option maxRecDepth 16384

noncomputable section

namespace Cert.KernelIdeal.Stencil

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers when the region is entered: the launch contents after the re-laying of `states`. -/
abbrev V0 (c : Dev nD) : Valuation τ sig (Elt F) := StableHlo.after (List.flatten [hostOps0]) (fun b => m (c, b))

abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock (iblk m c 0 t) (iblk m c 1 t) (iblk m c 2 t) (iblk m c 3 t) (iblk m c 4 t) (iblk m c 5 t) (iblk m c 6 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right.left
    | ⟨2, _⟩ => fullShare.right.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t
    = outBlock (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)

/-! ## The body obligation

Each input's current staging buffer holds its block at every point, fetched there or not (the lemmas above): unfetched,
the index has not moved since the last fetch, and the body left the block in place. -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Stencil

end
-- ==== Proof.KI.Launch.lean ====
/-
  The run of @main: the re-laying of `states`, the region, the re-laying of the result.

  The three lattice windows read ONE array, so the launch is the form that lets windows share arrays: the array's full
  share is dealt among the three windows at entry (a half and two quarters) and the same three parts are handed back
  at the exit. The result's re-laying runs after the region on the output array and a fresh buffer; at the end the
  result buffer holds the output window's final array re-laid as rows of 8, and every argument is as launched.
-/
import proofs.«423289_j38293928411137_4_alg».proof.Proof.KI.Data
import Idealize.ShloMosaic.Lib.Pipeline.FrameSuffix
import Idealize.ShloMosaic.Lib.StableHlo.Run

set_option maxRecDepth 16384

noncomputable section

namespace Cert.KernelIdeal.Stencil

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the result's re-laying, the buffers at `V` when the region is entered. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The shared array dealt among its windows -/

/-- The distinct buffers behind the windows' arrays, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_arg1) ↦{fullShare} W main_arg1)
          ∗ (((c : Thread nD τ).loc main_arg2) ↦{fullShare} W main_arg2) ∗ (((c : Thread nD τ).loc main_arg3) ↦{fullShare} W main_arg3)
          ∗ (((c : Thread nD τ).loc main_arg4) ↦{fullShare} W main_arg4) ∗ (((c : Thread nD τ).loc main_v1) ↦{fullShare} W main_v1)) := by
  unfold Pipeline.arrBufs
  exact bigSep_eq_bigSepL_of_eq [main_v0, main_arg1, main_arg2, main_arg3, main_arg4, main_v1] (by decide) (by decide) _

/-- The share each window holds its array at: the shared array's three parts, and the others whole. -/
theorem share_0 (c : Dev nD) : (dats m 0 c).share 0 = fullShare.left := rfl
theorem share_1 (c : Dev nD) : (dats m 0 c).share 1 = fullShare.right.left := rfl
theorem share_2 (c : Dev nD) : (dats m 0 c).share 2 = fullShare.right.right := rfl
theorem share_3 (c : Dev nD) : (dats m 0 c).share 3 = fullShare := rfl
theorem share_4 (c : Dev nD) : (dats m 0 c).share 4 = fullShare := rfl
theorem share_5 (c : Dev nD) : (dats m 0 c).share 5 = fullShare := rfl
theorem share_6 (c : Dev nD) : (dats m 0 c).share 6 = fullShare := rfl
theorem share_7 (c : Dev nD) : (dats m 0 c).share 7 = fullShare := rfl

/-- The windows' arrays, one by one, each at its share. -/
theorem arrays_eq (c : Dev nD) (G : (w : Fin cfg0.W) → Buf (Elt F) ((cfg0.win w).arr.view.loc (c.tc : Thread nD τ))) :
    ((dats m 0 c).arrays G : sProp 𝕄)
      = iprop((((c : Thread nD τ).loc main_v0) ↦{fullShare.left} G 0) ∗ (((c : Thread nD τ).loc main_v0) ↦{fullShare.right.left} G 1)
          ∗ (((c : Thread nD τ).loc main_v0) ↦{fullShare.right.right} G 2) ∗ (((c : Thread nD τ).loc main_arg1) ↦{fullShare} G 3)
          ∗ (((c : Thread nD τ).loc main_arg2) ↦{fullShare} G 4) ∗ (((c : Thread nD τ).loc main_arg3) ↦{fullShare} G 5)
          ∗ (((c : Thread nD τ).loc main_arg4) ↦{fullShare} G 6) ∗ (((c : Thread nD τ).loc main_v1) ↦{fullShare} G 7)) := by
  unfold Dat.arrays
  have h1 : (bigSep Finset.univ fun w : Fin cfg0.W =>
        ((cfg0.win w).arr.view.loc (c.tc : Thread nD τ) ↦[(cfg0.win w).arr.view.set]{(dats m 0 c).share w} G w : sProp 𝕄))
      = bigSep Finset.univ fun w : Fin cfg0.W =>
        (((c.tc : Thread nD τ).loc (Pipeline.arrRef spec0 w)) ↦{(dats m 0 c).share w} G w : sProp 𝕄) :=
    bigSep_congr fun w _ => by rw [(arr_whole0 w).set_eq_univ]
  rw [h1, bigSep_W0, share_0, share_1, share_2, share_3, share_4, share_5, share_6, share_7]

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq]
  iintro ⟨Hv0, Ha1, Ha2, Ha3, Ha4, Hv1⟩
  ihave H := (pointsTo_share (PosShare.mem_left_op_right fullShare)).1 $$ Hv0
  icases H with ⟨Hl, Hr⟩
  ihave H := (pointsTo_share (PosShare.mem_left_op_right fullShare.right)).1 $$ Hr
  icases H with ⟨Hrl, Hrr⟩
  isplitl [Hl]; · iexact Hl
  isplitl [Hrl]; · iexact Hrl
  isplitl [Hrr]; · iexact Hrr
  isplitl [Ha1]; · iexact Ha1
  isplitl [Ha2]; · iexact Ha2
  isplitl [Ha3]; · iexact Ha3
  isplitl [Ha4]; · iexact Ha4
  iexact Hv1

/-! ## The result's re-laying, after the region -/

/-- The two buffers the re-laying touches: the output array and the result buffer. -/
abbrev tailSet : Finset (DevRef τ sig) := {Proc.devRef .tc main_v1, Proc.devRef .tc main_v2}

theorem hostOps1_in : ∀ op ∈ (hostOps1 : List (HloOp τ sig (Elt F))), op.bufs ⊆ (tailSet : Finset (DevRef τ sig)) := by
  intro op hop
  simp only [hostOps1, List.mem_cons, List.mem_nil_iff, or_false] at hop
  subst hop
  rw [StableHlo.reshape_bufs]

theorem v1_ne_v2 : (Proc.devRef .tc main_v1 : DevRef τ sig) ∉ ({Proc.devRef .tc main_v2} : Finset (DevRef τ sig)) := by
  rw [Finset.mem_singleton]; exact StableHlo.devRef_ne_of_ne (by decide)

/-- The two buffers held at a valuation, one by one. -/
theorem held_tail (c : Dev nD) (W : Valuation τ sig (Elt F)) :
    (StableHlo.held (c.tc : Thread nD τ) tailSet W : sProp 𝕄)
      = iprop((((c.tc : Thread nD τ).1, (Proc.devRef .tc main_v1 : DevRef τ sig)) ↦{fullShare} W (Proc.devRef .tc main_v1))
          ∗ (((c.tc : Thread nD τ).1, (Proc.devRef .tc main_v2 : DevRef τ sig)) ↦{fullShare} W (Proc.devRef .tc main_v2))) := by
  unfold StableHlo.held
  rw [bigSep_insert v1_ne_v2, bigSep_singleton]
  rfl

/-- The buffers when the region is left: the output array as the last point left it, every other buffer as the region
    found it. -/
def Vexit (c : Dev nD) : Valuation τ sig (Elt F) :=
  Function.update (V0 m c) (Proc.devRef .tc main_v1) ((dats m 0 c).arrAt 7 cfg0.N)

/-- The buffers at the end of @main. -/
abbrev Vend (c : Dev nD) (b : Ref sig .tc) : Buf (Elt F) ((c : Thread nD τ).loc b) :=
  StableHlo.after hostOps1 (Vexit m c) (Proc.devRef .tc b)

theorem Vexit_v1 (c : Dev nD) : Vexit m c (Proc.devRef .tc main_v1) = (dats m 0 c).arrAt 7 cfg0.N := by
  unfold Vexit; exact Function.update_self ..

theorem Vexit_of_ne (c : Dev nD) (b : Ref sig .tc) (hb : b ≠ main_v1) : Vexit m c (Proc.devRef .tc b) = V m c b := by
  unfold Vexit; exact Function.update_of_ne (fun e => hb (Proc.devRef_injective _ e)) ..

/-- The re-laying leaves the output array alone, -/
theorem Vend_v1 (c : Dev nD) : Vend m c main_v1 = (dats m 0 c).arrAt 7 cfg0.N :=
  (StableHlo.after_of_forall_not_mem (b := Proc.devRef .tc main_v1) _ _ (List.forall_iff_forall_mem.mp (by
    simp only [hostOps1, List.Forall, StableHlo.reshape_writes, Finset.mem_singleton]
    exact StableHlo.devRef_ne_of_ne (by decide)))).trans (Vexit_v1 m c)

/-- writes the result buffer, -/
theorem Vend_v2 (c : Dev nD) :
    Vend m c main_v2 = shapeCast S2097152x8 ((dats m 0 c).arrAt 7 cfg0.N) shapeCasts_S128x128x1024_S2097152x8 := by
  show StableHlo.after hostOps1 (Vexit m c) (Proc.devRef .tc main_v2) = _
  after_results
  rw [Vexit_v1]
  rfl

/-- and leaves every other buffer as the region found it. -/
theorem Vend_of_ne (c : Dev nD) (b : Ref sig .tc) (h1 : b ≠ main_v1) (h2 : b ≠ main_v2) : Vend m c b = V m c b :=
  (StableHlo.after_of_forall_not_mem (b := Proc.devRef .tc b) _ _ (List.forall_iff_forall_mem.mp (by
    simp only [hostOps1, List.Forall, StableHlo.reshape_writes, Finset.mem_singleton]
    exact StableHlo.devRef_ne_of_ne h2))).trans (Vexit_of_ne m c b h1)

/-- The region finds every argument but `states`'s re-laid copy as launched. -/
theorem V_of_ne (c : Dev nD) (b : Ref sig .tc) (h : b ≠ main_v0) : V m c b = m ((c : Thread nD τ).loc b) :=
  StableHlo.after_of_forall_not_mem (b := Proc.devRef .tc b) _ _ (List.forall_iff_forall_mem.mp (by
    simp only [hostOps0, List.flatten_cons, List.flatten_nil, List.append_nil, List.Forall, StableHlo.reshape_writes, Finset.mem_singleton]
    exact StableHlo.devRef_ne_of_ne h))

/-! ## The launch -/

/-- The core's scoped buffers that are no staging buffer: all the invariant holds. -/
abbrev restOf (c : Dev nD) : sProp 𝕄 :=
  Pipeline.scopedRest (Ix := Unit) (Name := ℕ) (U := UR sig nD τ) (Lvl := ℕ) (Val := Elt F) spec0 c

/-- The re-laying after the region: from the region's exit it runs within the output array and the result buffer, and
    hands back the arrays as the region left them and the two other buffers at the end's contents. -/
theorem htail (c : Dev nD) (Q' : PUnit → sProp 𝕄) :
    iprop((iprop((dats m 0 c).arrays ((dats m 0 c).arrAt · cfg0.N)
              ∗ Pipeline.unscopedRest (Ix := Unit) (Name := ℕ) (U := UR sig nD τ) (Lvl := ℕ) spec0 c (Vend m c)) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (fun p => (cfgs p).toPCfg (Val := Elt F)) defs₀) (Variants.lift Variants.none) (c.tc : Thread nD τ) none) Set.univ
          (Pipeline.chain [StableHlo.seq hostOps1]) Q' := by
  have hseq := Pipeline.wp_seqs_then (fun p => (cfgs p).toPCfg (Val := Elt F)) defs₀ Variants.none c tailSet [] (K := Q') [hostOps1]
    (fun ops hops op hop => by rw [List.mem_singleton] at hops; subst hops; exact hostOps1_in op hop)
    (fun ops hops op hop => by rw [List.mem_singleton] at hops; subst hops; exact (List.forall_iff_forall_mem.mp hostOps1_fresh) op hop)
    (Vexit m c)
  simp only [List.flatten_cons, List.flatten_nil, List.append_nil, List.map_cons, List.map_nil] at hseq
  rw [held_tail, held_tail, Vexit_v1, Vexit_of_ne m c main_v2 (by decide),
    show StableHlo.after hostOps1 (Vexit m c) (Proc.devRef .tc main_v1) = (dats m 0 c).arrAt 7 cfg0.N from Vend_v1 m c] at hseq
  rw [arrays_eq, unscopedRest0_eq, unscopedRest0_eq, Vend_of_ne m c main_arg0 (by decide) (by decide)]
  iintro ⟨Hk, Hbd, ⟨A0, A1, A2, A3, A4, A5, A6, A7⟩, ⟨Z0, Z2⟩⟩
  iapply hseq $$ [Hbd A7 Z2]
  · isplitl [Hbd]; · iexact Hbd
    isplitl [A7]; · iexact A7
    iexact Z2
  iintro ⟨Hbd, H1, H2⟩
  rw [Pipeline.chain_nil, wp_pure]; imodintro
  iapply Hk
  isplitl [A0 A1 A2 A3 A4 A5 A6 H1]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact H1
  isplitl [Z0]; · iexact Z0
  iexact H2

set_option backward.isDefEq.respectTransparency.types false in
/-- At the compiled mesh, for any values, from any memory with zero counters: every weakly fair execution of @main
    terminates, nothing faulting; at the end the result buffer holds the output window's array, as the last point left
    it, re-laid as rows of 8, and the five arguments are as launched. -/
theorem run_main : θ_run defs (onTc (τ := τ) (main (F := F))) ⟨m, fun _ => 0, ρ⟩ (fun r => ∀ c : Dev nD,
      r.2.mem ((c.tc : Thread nD τ).loc main_v2)
        = shapeCast S2097152x8 ((dats m 0 c).arrAt 7 cfg0.N) shapeCasts_S128x128x1024_S2097152x8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_region_noSem_pf_tail (fun p => (cfgs p).toPCfg (Val := Elt F)) (fun p => (cfgs p).toPCfg_adm) (dats m) () cellOf_inj (0 : Fin 1)
    winFacts₀0 (Pipeline.PreFacts.none _) emb₁ defs₀ Variants.none m ρ main (fun _ => Pipeline.chain [StableHlo.seq hostOps1])
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m) (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (Vend m c))
    (hX := fun c => by
      rw [Pipeline.unscopedRestP_none]
      iintro H; isplitr; · iempintro
      iexact H)
    (hin := fun c => by
      show iprop(_ ∗ _ ∗ restOf c) ⊢ restOf c
      iintro ⟨-, -, HR⟩; iexact HR)
    (hout := fun c => by
      show restOf c ⊢ iprop(_ ∗ restOf c)
      iintro HR; isplitr; · iempintro
      iexact HR)
    (htail := htail m)
    (QY := fun c s => ∀ b ∈ Pipeline.restRefs sig spec0, s.mem ((c.tc : Thread nD τ).loc b) = Vend m c b)
    (hY := fun c s' => by
      iintro ⟨-, HU, HSI⟩
      unfold Pipeline.unscopedRest
      imodintro
      iapply (pointsTo_read_all (Pipeline.restRefs sig spec0) (fun b => (c.tc : Thread nD τ).loc b) (Vend m c) s')
      isplitl [HU] <;> iassumption)
    (hQ := fun s h c => by
      obtain ⟨harr, -, hrest⟩ := h c
      refine ⟨?_, ?_, ?_, ?_, ?_, ?_⟩
      · exact (hrest main_v2 (Pipeline.mem_restRefs_of main_v2 rfl (by decide))).trans (Vend_v2 m c)
      · exact (hrest main_arg0 (Pipeline.mem_restRefs_of main_arg0 rfl (by decide))).trans
          ((Vend_of_ne m c main_arg0 (by decide) (by decide)).trans (V_of_ne m c main_arg0 (by decide)))
      · exact (harr 3).trans (((dats m 0 c).arrAt_in 3 rfl _).trans ((A_eq m c 3).trans (V_of_ne m c main_arg1 (by decide))))
      · exact (harr 4).trans (((dats m 0 c).arrAt_in 4 rfl _).trans ((A_eq m c 4).trans (V_of_ne m c main_arg2 (by decide))))
      · exact (harr 5).trans (((dats m 0 c).arrAt_in 5 rfl _).trans ((A_eq m c 5).trans (V_of_ne m c main_arg3 (by decide))))
      · exact (harr 6).trans (((dats m 0 c).arrAt_in 6 rfl _).trans ((A_eq m c 6).trans (V_of_ne m c main_arg4 (by decide)))))

end Cert.KernelIdeal.Stencil

end
-- ==== Proof.Spec.lean ====
/-
  The function both programs compute, stated once, index by index, over the extended reals.

  The 2 097 152 rows of `states` are the sites of a periodic 128 × 128 × 128 lattice, row `z·128² + y·128 + x` the
  site `(z, y, x)`; each site carries 8 numbers. A site gathers 56 numbers: its own 8, then those of its six
  neighbours in the order x−1, x+1, y−1, y+1, z−1, z+1 (indices wrap around modulo 128). The result at the site is

      out[s] = Σ_{h<16} tanh( Σ_{k<56} gathered[k] · W1[k, h] + b1[h] ) · W2[h, s] + b2[s].
-/
import Idealize.ShloMosaic.PureOps.Ideal
import Idealize.ShloMosaic.Lib.ValueIdx

noncomputable section

namespace Cert.Lattice

open Idealize.ShloMosaic Idealize.ShloMosaic.ValueIdx

/-- Row of the site `(z, y, x)`. -/
def site (z y x : Fin 128) : Fin 2097152 := ⟨z.val * 16384 + y.val * 128 + x.val, by omega⟩

/-- The coordinate one step down, wrapping around. -/
def down (a : Fin 128) : Fin 128 := ⟨(a.val + 127) % 128, Nat.mod_lt _ (by decide)⟩

/-- The coordinate one step up, wrapping around. -/
def up (a : Fin 128) : Fin 128 := ⟨(a.val + 1) % 128, Nat.mod_lt _ (by decide)⟩

/-- The row the `d`-th gathered group of a site comes from: the site itself, then x−1, x+1, y−1, y+1, z−1, z+1. -/
def source (d : Fin 7) (z y x : Fin 128) : Fin 2097152 :=
  match d with
  | 0 => site z y x
  | 1 => site z y (down x)
  | 2 => site z y (up x)
  | 3 => site z (down y) x
  | 4 => site z (up y) x
  | 5 => site (down z) y x
  | 6 => site (up z) y x

/-- The `k`-th of the 56 numbers a site gathers: number `k % 8` of group `k / 8`. -/
def gathered (st : (⟨2, ![2097152, 8]⟩ : Shape).Idx → EReal) (z y x : Fin 128) (k : Fin 56) : EReal :=
  st (ix2 (source ⟨k.val / 8, by omega⟩ z y x) (⟨k.val % 8, Nat.mod_lt _ (by decide)⟩ : Fin 8))

/-- The hidden layer at a site: `tanh` of the affine image of the gathered numbers. -/
def hidden (st : (⟨2, ![2097152, 8]⟩ : Shape).Idx → EReal) (w1 : (⟨2, ![56, 16]⟩ : Shape).Idx → EReal)
    (b1 : (⟨1, ![16]⟩ : Shape).Idx → EReal) (z y x : Fin 128) (h : Fin 16) : EReal :=
  Ideal.tanh ((∑ k : Fin 56, gathered st z y x k * w1 (ix2 k h)) + b1 (ix1 h))

/-- The result at a site: the affine image of the hidden layer. -/
def result (st : (⟨2, ![2097152, 8]⟩ : Shape).Idx → EReal) (w1 : (⟨2, ![56, 16]⟩ : Shape).Idx → EReal)
    (b1 : (⟨1, ![16]⟩ : Shape).Idx → EReal) (w2 : (⟨2, ![16, 8]⟩ : Shape).Idx → EReal) (b2 : (⟨1, ![8]⟩ : Shape).Idx → EReal)
    (z y x : Fin 128) (s : Fin 8) : EReal :=
  (∑ h : Fin 16, hidden st w1 b1 z y x h * w2 (ix2 h s)) + b2 (ix1 s)

/-- The three lattice coordinates of a row. -/
def zOf (r : Fin 2097152) : Fin 128 := ⟨r.val / 16384, by omega⟩
def yOf (r : Fin 2097152) : Fin 128 := ⟨r.val / 128 % 128, Nat.mod_lt _ (by decide)⟩
def xOf (r : Fin 2097152) : Fin 128 := ⟨r.val % 128, Nat.mod_lt _ (by decide)⟩

theorem site_coords (r : Fin 2097152) : site (zOf r) (yOf r) (xOf r) = r := by
  apply Fin.ext; simp only [site, zOf, yOf, xOf]; omega

/-- The whole result array, row by row. -/
def update (st : (⟨2, ![2097152, 8]⟩ : Shape).Idx → EReal) (w1 : (⟨2, ![56, 16]⟩ : Shape).Idx → EReal)
    (b1 : (⟨1, ![16]⟩ : Shape).Idx → EReal) (w2 : (⟨2, ![16, 8]⟩ : Shape).Idx → EReal) (b2 : (⟨1, ![8]⟩ : Shape).Idx → EReal) :
    (⟨2, ![2097152, 8]⟩ : Shape).Idx → EReal :=
  fun j => result st w1 b1 w2 b2 (zOf (j 0)) (yOf (j 0)) (xOf (j 0)) (j 1)

/-! ## One slab of 8 planes

A grid point of the kernel sees 8 consecutive planes `x0`, the plane below them `xp` and the plane above them `xn`,
each plane 128 rows of 1024 numbers: lane `8·x + s` of row `y` is number `s` of the site `(·, y, x)`. -/

/-- The lane of number `s` of the site at `x`. -/
def lane (x : Fin 128) (s : Fin 8) : Fin 1024 := ⟨x.val * 8 + s.val, by omega⟩

/-- The `k`-th gathered number of the site `(p, y, x)` of the slab: the z-neighbours of the slab's first and last
    planes come from `xp` and `xn`. -/
def slabGathered (x0 : (⟨3, ![8, 128, 1024]⟩ : Shape).Idx → EReal) (xp xn : (⟨3, ![1, 128, 1024]⟩ : Shape).Idx → EReal)
    (p : Fin 8) (y x : Fin 128) (k : Fin 56) : EReal :=
  let s : Fin 8 := ⟨k.val % 8, Nat.mod_lt _ (by decide)⟩
  match (⟨k.val / 8, by omega⟩ : Fin 7) with
  | 0 => x0 (ix3 p y (lane x s))
  | 1 => x0 (ix3 p y (lane (down x) s))
  | 2 => x0 (ix3 p y (lane (up x) s))
  | 3 => x0 (ix3 p (down y) (lane x s))
  | 4 => x0 (ix3 p (up y) (lane x s))
  | 5 => if h : p.val = 0 then xp (ix3 (0 : Fin 1) y (lane x s)) else x0 (ix3 (⟨p.val - 1, by omega⟩ : Fin 8) y (lane x s))
  | 6 => if h : p.val = 7 then xn (ix3 (0 : Fin 1) y (lane x s)) else x0 (ix3 (⟨p.val + 1, by omega⟩ : Fin 8) y (lane x s))

/-- The result at the site `(p, y, x)` of the slab. -/
def slabResult (x0 : (⟨3, ![8, 128, 1024]⟩ : Shape).Idx → EReal) (xp xn : (⟨3, ![1, 128, 1024]⟩ : Shape).Idx → EReal)
    (w1 : (⟨2, ![56, 16]⟩ : Shape).Idx → EReal) (b1 : (⟨1, ![16]⟩ : Shape).Idx → EReal)
    (w2 : (⟨2, ![16, 8]⟩ : Shape).Idx → EReal) (b2 : (⟨1, ![8]⟩ : Shape).Idx → EReal)
    (p : Fin 8) (y x : Fin 128) (s : Fin 8) : EReal :=
  (∑ h : Fin 16, Ideal.tanh ((∑ k : Fin 56, slabGathered x0 xp xn p y x k * w1 (ix2 k h)) + b1 (ix1 h)) * w2 (ix2 h s)) + b2 (ix1 s)

end Cert.Lattice

end
-- ==== Proof.KI.StoredAt.lean ====
/-
  What the body stores, read at one site of the slab, over the extended reals: the sum of the seven 8-channel
  products is the one 56-channel product of the gathered numbers — the shifts along x are rotations of the 1024 lanes
  by 8 and by 1016, the shifts along y rotations of the 128 rows by 1 and by 127, the shifts along z the slab moved one
  plane with the neighbouring plane joined at the free end.
-/
import proofs.«423289_j38293928411137_4_alg».proof.Proof.KI.Body
import proofs.«423289_j38293928411137_4_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws
import Mathlib.Algebra.BigOperators.Fin
import Mathlib.Data.Fintype.BigOperators
import Mathlib.Logic.Equiv.Fin.Basic

set_option maxRecDepth 16384

noncomputable section

namespace Cert.KernelIdeal.Stencil.StoredAt

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- Row of the site (p, y, x) of the slab, the slab read as 131072 rows of 8. -/
def row (p : Fin 8) (y x : Fin 128) : Fin 131072 := ⟨p.val * 16384 + y.val * 128 + x.val, by omega⟩

/-- The slab as rows of 8: row (p, y, x), number k, is lane 8·x + k of row y of plane p. -/
theorem rows_apply {α : Type} (v : S8x128x1024.Idx → α) (p : Fin 8) (y x : Fin 128) (k : Fin 8) :
    shapeCast S131072x8 v shapeCasts_S8x128x1024_S131072x8 (ix2 (row p y x) k) = v (ix3 p y (Cert.Lattice.lane x k)) := by
  refine shapeCast_apply v _ _ _ ?_
  rw [Shape.rowMajor_val_three, Shape.rowMajor_val_two]
  show (p.val * 128 + y.val) * 1024 + (x.val * 8 + k.val) = (p.val * 16384 + y.val * 128 + x.val) * 8 + k.val
  omega

/-- And back: lane 8·x + s of row y of plane p is number s of row (p, y, x). -/
theorem slab_apply {α : Type} (u : S131072x8.Idx → α) (p : Fin 8) (y x : Fin 128) (s : Fin 8) :
    shapeCast S8x128x1024 u shapeCasts_S131072x8_S8x128x1024 (ix3 p y (Cert.Lattice.lane x s)) = u (ix2 (row p y x) s) := by
  refine shapeCast_apply u _ _ _ ?_
  rw [Shape.rowMajor_val_three, Shape.rowMajor_val_two]
  show (p.val * 16384 + y.val * 128 + x.val) * 8 + s.val = (p.val * 128 + y.val) * 1024 + (x.val * 8 + s.val)
  omega

theorem lhsA_0 (i : S131072x16.Idx) (q : dot_S131072x8_S8x16_S131072x16_1_0_0_1_n_n.contr.Idx) :
    (dot_S131072x8_S8x16_S131072x16_1_0_0_1_n_n.lhsIdx i q 0).val = (i 0).val := by
  unfold DotDims.lhsIdx
  rw [dif_neg (show ¬(0 : Fin S131072x8.rank) ∈ dot_S131072x8_S8x16_S131072x16_1_0_0_1_n_n.lhsBatch by decide), dif_pos (show (0 : Fin S131072x8.rank) ∈ dot_S131072x8_S8x16_S131072x16_1_0_0_1_n_n.lhsNonContracting by decide)]
  rfl
theorem lhsA_1 (i : S131072x16.Idx) (q : dot_S131072x8_S8x16_S131072x16_1_0_0_1_n_n.contr.Idx) :
    (dot_S131072x8_S8x16_S131072x16_1_0_0_1_n_n.lhsIdx i q 1).val = (q ⟨0, by decide⟩).val :=
  dot_S131072x8_S8x16_S131072x16_1_0_0_1_n_n.lhsIdx_val_of_single rfl i q
theorem rhsA_0 (i : S131072x16.Idx) (q : dot_S131072x8_S8x16_S131072x16_1_0_0_1_n_n.contr.Idx) :
    (dot_S131072x8_S8x16_S131072x16_1_0_0_1_n_n.rhsIdx i q 0).val = (q ⟨0, by decide⟩).val :=
  dot_S131072x8_S8x16_S131072x16_1_0_0_1_n_n.rhsIdx_val_of_single rfl i q
theorem rhsA_1 (i : S131072x16.Idx) (q : dot_S131072x8_S8x16_S131072x16_1_0_0_1_n_n.contr.Idx) :
    (dot_S131072x8_S8x16_S131072x16_1_0_0_1_n_n.rhsIdx i q 1).val = (i 1).val := by
  unfold DotDims.rhsIdx
  rw [dif_neg (show ¬(1 : Fin S8x16.rank) ∈ dot_S131072x8_S8x16_S131072x16_1_0_0_1_n_n.rhsBatch by decide), dif_pos (show (1 : Fin S8x16.rank) ∈ dot_S131072x8_S8x16_S131072x16_1_0_0_1_n_n.rhsNonContracting by decide)]
  rfl

/-- A product of the rows with an 8 × 16 matrix, into the zero accumulator, at row r and column h. -/
theorem layer1_apply (a : FVec Ideal S131072x8 .f32) (w : FVec Ideal S8x16 .f32) (r : Fin 131072) (h : Fin 16) :
    matmul dot_S131072x8_S8x16_S131072x16_1_0_0_1_n_n none a w (constant (F := Ideal) S131072x16 .f32 0x00000000#32) (ix2 r h)
      = ∑ k : Fin 8, a (ix2 r k) * w (ix2 k h) := by
  simp only [matmul]
  rw [Ideal.matmul_constant_zero_apply, ← Equiv.sum_comp (ValueIdx.contrEquiv1 dot_S131072x8_S8x16_S131072x16_1_0_0_1_n_n 8 rfl rfl).symm]
  refine Finset.sum_congr rfl fun k _ => ?_
  have hk := ValueIdx.contrEquiv1_symm_val dot_S131072x8_S8x16_S131072x16_1_0_0_1_n_n 8 rfl rfl k
  have el : dot_S131072x8_S8x16_S131072x16_1_0_0_1_n_n.lhsIdx (ix2 r h) ((ValueIdx.contrEquiv1 dot_S131072x8_S8x16_S131072x16_1_0_0_1_n_n 8 rfl rfl).symm k) = ix2 r k := funext fun a => Fin.ext (by
    match a with
    | ⟨0, _⟩ => exact lhsA_0 _ _
    | ⟨1, _⟩ => exact (lhsA_1 _ _).trans hk)
  have er : dot_S131072x8_S8x16_S131072x16_1_0_0_1_n_n.rhsIdx (ix2 r h) ((ValueIdx.contrEquiv1 dot_S131072x8_S8x16_S131072x16_1_0_0_1_n_n 8 rfl rfl).symm k) = ix2 k h := funext fun a => Fin.ext (by
    match a with
    | ⟨0, _⟩ => exact (rhsA_0 _ _).trans hk
    | ⟨1, _⟩ => exact rhsA_1 _ _)
  rw [el, er]

theorem lhsB_0 (i : S131072x8.Idx) (q : dot_S131072x16_S16x8_S131072x8_1_0_0_1_n_n.contr.Idx) :
    (dot_S131072x16_S16x8_S131072x8_1_0_0_1_n_n.lhsIdx i q 0).val = (i 0).val := by
  unfold DotDims.lhsIdx
  rw [dif_neg (show ¬(0 : Fin S131072x16.rank) ∈ dot_S131072x16_S16x8_S131072x8_1_0_0_1_n_n.lhsBatch by decide), dif_pos (show (0 : Fin S131072x16.rank) ∈ dot_S131072x16_S16x8_S131072x8_1_0_0_1_n_n.lhsNonContracting by decide)]
  rfl
theorem lhsB_1 (i : S131072x8.Idx) (q : dot_S131072x16_S16x8_S131072x8_1_0_0_1_n_n.contr.Idx) :
    (dot_S131072x16_S16x8_S131072x8_1_0_0_1_n_n.lhsIdx i q 1).val = (q ⟨0, by decide⟩).val :=
  dot_S131072x16_S16x8_S131072x8_1_0_0_1_n_n.lhsIdx_val_of_single rfl i q
theorem rhsB_0 (i : S131072x8.Idx) (q : dot_S131072x16_S16x8_S131072x8_1_0_0_1_n_n.contr.Idx) :
    (dot_S131072x16_S16x8_S131072x8_1_0_0_1_n_n.rhsIdx i q 0).val = (q ⟨0, by decide⟩).val :=
  dot_S131072x16_S16x8_S131072x8_1_0_0_1_n_n.rhsIdx_val_of_single rfl i q
theorem rhsB_1 (i : S131072x8.Idx) (q : dot_S131072x16_S16x8_S131072x8_1_0_0_1_n_n.contr.Idx) :
    (dot_S131072x16_S16x8_S131072x8_1_0_0_1_n_n.rhsIdx i q 1).val = (i 1).val := by
  unfold DotDims.rhsIdx
  rw [dif_neg (show ¬(1 : Fin S16x8.rank) ∈ dot_S131072x16_S16x8_S131072x8_1_0_0_1_n_n.rhsBatch by decide), dif_pos (show (1 : Fin S16x8.rank) ∈ dot_S131072x16_S16x8_S131072x8_1_0_0_1_n_n.rhsNonContracting by decide)]
  rfl

/-- A product of rows of 16 with a 16 × 8 matrix, into the zero accumulator, at row r and column s. -/
theorem layer2_apply (a : FVec Ideal S131072x16 .f32) (w : FVec Ideal S16x8 .f32) (r : Fin 131072) (s : Fin 8) :
    matmul dot_S131072x16_S16x8_S131072x8_1_0_0_1_n_n none a w (constant (F := Ideal) S131072x8 .f32 0x00000000#32) (ix2 r s)
      = ∑ h : Fin 16, a (ix2 r h) * w (ix2 h s) := by
  simp only [matmul]
  rw [Ideal.matmul_constant_zero_apply, ← Equiv.sum_comp (ValueIdx.contrEquiv1 dot_S131072x16_S16x8_S131072x8_1_0_0_1_n_n 16 rfl rfl).symm]
  refine Finset.sum_congr rfl fun k _ => ?_
  have hk := ValueIdx.contrEquiv1_symm_val dot_S131072x16_S16x8_S131072x8_1_0_0_1_n_n 16 rfl rfl k
  have el : dot_S131072x16_S16x8_S131072x8_1_0_0_1_n_n.lhsIdx (ix2 r s) ((ValueIdx.contrEquiv1 dot_S131072x16_S16x8_S131072x8_1_0_0_1_n_n 16 rfl rfl).symm k) = ix2 r k := funext fun a => Fin.ext (by
    match a with
    | ⟨0, _⟩ => exact lhsB_0 _ _
    | ⟨1, _⟩ => exact (lhsB_1 _ _).trans hk)
  have er : dot_S131072x16_S16x8_S131072x8_1_0_0_1_n_n.rhsIdx (ix2 r s) ((ValueIdx.contrEquiv1 dot_S131072x16_S16x8_S131072x8_1_0_0_1_n_n 16 rfl rfl).symm k) = ix2 k s := funext fun a => Fin.ext (by
    match a with
    | ⟨0, _⟩ => exact (rhsB_0 _ _).trans hk
    | ⟨1, _⟩ => exact rhsB_1 _ _)
  rw [el, er]

/-- Rows 8·d … 8·d + 7 of the first weight matrix. -/
theorem w1_rows {α : Type} (w : S56x16.Idx → α) (o : Nat) (hs : S56x16.Slices ![o, 0] S8x16) (ho : o + 8 ≤ 56) (k : Fin 8) (h : Fin 16) :
    extractStridedSlice S8x16 ![o, 0] w hs (ix2 k h) = w (ix2 (⟨o + k.val, by omega⟩ : Fin 56) h) := by
  refine extractStridedSlice_apply _ w hs _ _ fun a => ?_
  match a with
  | ⟨0, _⟩ => rfl
  | ⟨1, _⟩ => show h.val = 0 + h.val; omega

/-- The lanes rotated by 8: the site one step down in x. -/
theorem lanes_down {α : Type} (v : S8x128x1024.Idx → α) (p : Fin 8) (y x : Fin 128) (k : Fin 8) :
    dynamicRotate 2 8#32 none v rotates_S8x128x1024_d2 (ix3 p y (Cert.Lattice.lane x k))
      = v (ix3 p y (Cert.Lattice.lane (Cert.Lattice.down x) k)) := by
  refine dynamicRotate_apply _ _ v _ _ _ fun b => ?_
  match b with
  | ⟨0, _⟩ => rfl
  | ⟨1, _⟩ => rfl
  | ⟨2, _⟩ =>
    show (x.val + 127) % 128 * 8 + k.val = (x.val * 8 + k.val + 1024 - 8 % 1024) % 1024
    omega

/-- The lanes rotated by 1016: the site one step up in x. -/
theorem lanes_up {α : Type} (v : S8x128x1024.Idx → α) (p : Fin 8) (y x : Fin 128) (k : Fin 8) :
    dynamicRotate 2 1016#32 none v rotates_S8x128x1024_d2 (ix3 p y (Cert.Lattice.lane x k))
      = v (ix3 p y (Cert.Lattice.lane (Cert.Lattice.up x) k)) := by
  refine dynamicRotate_apply _ _ v _ _ _ fun b => ?_
  match b with
  | ⟨0, _⟩ => rfl
  | ⟨1, _⟩ => rfl
  | ⟨2, _⟩ =>
    show (x.val + 1) % 128 * 8 + k.val = (x.val * 8 + k.val + 1024 - 1016 % 1024) % 1024
    omega

/-- The rows rotated by 1: the site one step down in y. -/
theorem rows_down {α : Type} (v : S8x128x1024.Idx → α) (p : Fin 8) (y : Fin 128) (l : Fin 1024) :
    dynamicRotate 1 1#32 none v rotates_S8x128x1024_d1 (ix3 p y l) = v (ix3 p (Cert.Lattice.down y) l) := by
  refine dynamicRotate_apply _ _ v _ _ _ fun b => ?_
  match b with
  | ⟨0, _⟩ => rfl
  | ⟨1, _⟩ =>
    show (y.val + 127) % 128 = (y.val + 128 - 1 % 128) % 128
    omega
  | ⟨2, _⟩ => rfl

/-- The rows rotated by 127: the site one step up in y. -/
theorem rows_up {α : Type} (v : S8x128x1024.Idx → α) (p : Fin 8) (y : Fin 128) (l : Fin 1024) :
    dynamicRotate 1 127#32 none v rotates_S8x128x1024_d1 (ix3 p y l) = v (ix3 p (Cert.Lattice.up y) l) := by
  refine dynamicRotate_apply _ _ v _ _ _ fun b => ?_
  match b with
  | ⟨0, _⟩ => rfl
  | ⟨1, _⟩ =>
    show (y.val + 1) % 128 = (y.val + 128 - 127 % 128) % 128
    omega
  | ⟨2, _⟩ => rfl

/-- The first bias, as a row, spread over all rows. -/
theorem bias1_apply {α : Type} (b : S16.Idx → α) (r : Fin 131072) (h : Fin 16) :
    broadcastTo S131072x16 (shapeCast S1x16 b shapeCasts_S16_S1x16) broadcasts_S1x16_S131072x16 (ix2 r h) = b (ix1 h) := by
  refine (broadcastTo_apply _ broadcasts_S1x16_S131072x16 (ix2 r h) (ix2 (0 : Fin 1) h) fun a => ?_).trans ?_
  · match a with
    | ⟨0, _⟩ => rfl
    | ⟨1, _⟩ => rfl
  · refine shapeCast_apply b _ _ _ ?_
    rw [Shape.rowMajor_val_one, Shape.rowMajor_val_two]
    show h.val = 0 * 16 + h.val
    omega

/-- The second bias, as a row, spread over all rows. -/
theorem bias2_apply {α : Type} (b : S8.Idx → α) (r : Fin 131072) (s : Fin 8) :
    broadcastTo S131072x8 (shapeCast S1x8 b shapeCasts_S8_S1x8) broadcasts_S1x8_S131072x8 (ix2 r s) = b (ix1 s) := by
  refine (broadcastTo_apply _ broadcasts_S1x8_S131072x8 (ix2 r s) (ix2 (0 : Fin 1) s) fun a => ?_).trans ?_
  · match a with
    | ⟨0, _⟩ => rfl
    | ⟨1, _⟩ => rfl
  · refine shapeCast_apply b _ _ _ ?_
    rw [Shape.rowMajor_val_one, Shape.rowMajor_val_two]
    show s.val = 0 * 8 + s.val
    omega

/-- A halo plane taken out of its unit axis and put back is itself. -/
theorem plane_apply {α : Type} (u : S1x128x1024.Idx → α) (y : Fin 128) (l : Fin 1024) :
    shapeCast S1x128x1024 (shapeCast S128x1024 u shapeCasts_S1x128x1024_S128x1024) shapeCasts_S128x1024_S1x128x1024 (ix3 (0 : Fin 1) y l)
      = u (ix3 (0 : Fin 1) y l) := by
  refine (shapeCast_apply _ shapeCasts_S128x1024_S1x128x1024 _ (ix2 y l) ?_).trans (shapeCast_apply u _ _ _ ?_)
  · rw [Shape.rowMajor_val_three, Shape.rowMajor_val_two]
    show y.val * 1024 + l.val = (0 * 128 + y.val) * 1024 + l.val
    omega
  · rw [Shape.rowMajor_val_three, Shape.rowMajor_val_two]
    show (0 * 128 + y.val) * 1024 + l.val = y.val * 1024 + l.val
    omega

/-- The slab moved one plane up with the plane below joined at the bottom: the site one step down in z. -/
theorem planes_down {α : Type} (v : S8x128x1024.Idx → α) (u : S1x128x1024.Idx → α) (p : Fin 8) (y : Fin 128) (l : Fin 1024) :
    concatenate S8x128x1024 0 [⟨S1x128x1024, u⟩,
        ⟨S7x128x1024, extractStridedSlice S7x128x1024 ![0, 0, 0] v slices_S8x128x1024_o0_0_0_S7x128x1024⟩]
        concatenates_S1x128x1024_S7x128x1024_S8x128x1024_d0 (ix3 p y l)
      = if h : p.val = 0 then u (ix3 (0 : Fin 1) y l) else v (ix3 (⟨p.val - 1, by omega⟩ : Fin 8) y l) := by
  by_cases h : p.val = 0
  · rw [dif_pos h]
    refine concatenate_pair_apply_left (t := S8x128x1024) (s₁ := S1x128x1024) (s₂ := S7x128x1024) 0 _ _ _ _ rfl (ix3 (0 : Fin 1) y l) fun b => ?_
    match b with
    | ⟨0, _⟩ => exact h.symm
    | ⟨1, _⟩ => rfl
    | ⟨2, _⟩ => rfl
  · rw [dif_neg h]
    refine (concatenate_pair_apply_right (t := S8x128x1024) (s₁ := S1x128x1024) (s₂ := S7x128x1024) 0 _ _ _ _ rfl rfl (ix3 (⟨p.val - 1, by omega⟩ : Fin 7) y l) (fun b hb => ?_) ?_).trans ?_
    · match b with
      | ⟨0, _⟩ => exact absurd rfl hb
      | ⟨1, _⟩ => rfl
      | ⟨2, _⟩ => rfl
    · show p.val - 1 + 1 = p.val
      omega
    · refine extractStridedSlice_apply _ v _ _ _ fun a => ?_
      match a with
      | ⟨0, _⟩ => show p.val - 1 = 0 + (p.val - 1); omega
      | ⟨1, _⟩ => show y.val = 0 + y.val; omega
      | ⟨2, _⟩ => show l.val = 0 + l.val; omega

/-- The slab moved one plane down with the plane above joined at the top: the site one step up in z. -/
theorem planes_up {α : Type} (v : S8x128x1024.Idx → α) (u : S1x128x1024.Idx → α) (p : Fin 8) (y : Fin 128) (l : Fin 1024) :
    concatenate S8x128x1024 0 [⟨S7x128x1024, extractStridedSlice S7x128x1024 ![1, 0, 0] v slices_S8x128x1024_o1_0_0_S7x128x1024⟩,
        ⟨S1x128x1024, u⟩]
        concatenates_S7x128x1024_S1x128x1024_S8x128x1024_d0 (ix3 p y l)
      = if h : p.val = 7 then u (ix3 (0 : Fin 1) y l) else v (ix3 (⟨p.val + 1, by omega⟩ : Fin 8) y l) := by
  by_cases h : p.val = 7
  · rw [dif_pos h]
    refine concatenate_pair_apply_right (t := S8x128x1024) (s₁ := S7x128x1024) (s₂ := S1x128x1024) 0 _ _ _ _ rfl rfl (ix3 (0 : Fin 1) y l) (fun b hb => ?_) ?_
    · match b with
      | ⟨0, _⟩ => exact absurd rfl hb
      | ⟨1, _⟩ => rfl
      | ⟨2, _⟩ => rfl
    · show 0 + 7 = p.val
      omega
  · rw [dif_neg h]
    refine (concatenate_pair_apply_left (t := S8x128x1024) (s₁ := S7x128x1024) (s₂ := S1x128x1024) 0 _ _ _ _ rfl (ix3 (⟨p.val, by omega⟩ : Fin 7) y l) fun b => ?_).trans ?_
    · match b with
      | ⟨0, _⟩ => rfl
      | ⟨1, _⟩ => rfl
      | ⟨2, _⟩ => rfl
    · refine extractStridedSlice_apply _ v _ _ _ fun a => ?_
      match a with
      | ⟨0, _⟩ => show p.val + 1 = 1 + p.val; omega
      | ⟨1, _⟩ => show y.val = 0 + y.val; omega
      | ⟨2, _⟩ => show l.val = 0 + l.val; omega

/-- The k-th of the 8 gathered numbers of the group that starts at o. -/
def grp (o : Nat) (ho : o + 8 ≤ 56) (k : Fin 8) : Fin 56 := ⟨o + k.val, by omega⟩

section Gathered
variable (x0 : (⟨3, ![8, 128, 1024]⟩ : Shape).Idx → EReal) (xp xn : (⟨3, ![1, 128, 1024]⟩ : Shape).Idx → EReal)
  (p : Fin 8) (y x : Fin 128)

/-- The seven groups of gathered numbers, by group d and place s. -/
def branch (d : Fin 7) (s : Fin 8) : EReal :=
  match d with
  | 0 => x0 (ix3 p y (Cert.Lattice.lane x s))
  | 1 => x0 (ix3 p y (Cert.Lattice.lane (Cert.Lattice.down x) s))
  | 2 => x0 (ix3 p y (Cert.Lattice.lane (Cert.Lattice.up x) s))
  | 3 => x0 (ix3 p (Cert.Lattice.down y) (Cert.Lattice.lane x s))
  | 4 => x0 (ix3 p (Cert.Lattice.up y) (Cert.Lattice.lane x s))
  | 5 => if h : p.val = 0 then xp (ix3 (0 : Fin 1) y (Cert.Lattice.lane x s)) else x0 (ix3 (⟨p.val - 1, by omega⟩ : Fin 8) y (Cert.Lattice.lane x s))
  | 6 => if h : p.val = 7 then xn (ix3 (0 : Fin 1) y (Cert.Lattice.lane x s)) else x0 (ix3 (⟨p.val + 1, by omega⟩ : Fin 8) y (Cert.Lattice.lane x s))

/-- The gathered number with its group d and its place s named. -/
theorem gathered_of (K : Fin 56) (d : Fin 7) (s : Fin 8) (hd : K.val / 8 = d.val) (hs : K.val % 8 = s.val) :
    Cert.Lattice.slabGathered x0 xp xn p y x K = branch x0 xp xn p y x d s := by
  have e1 : (⟨K.val / 8, by omega⟩ : Fin 7) = d := Fin.ext hd
  have e2 : (⟨K.val % 8, Nat.mod_lt _ (by decide)⟩ : Fin 8) = s := Fin.ext hs
  unfold Cert.Lattice.slabGathered branch
  simp only [e1, e2]
  fin_cases d <;> rfl

theorem gathered_0 (k : Fin 8) : Cert.Lattice.slabGathered x0 xp xn p y x (grp 0 (by decide) k) = x0 (ix3 p y (Cert.Lattice.lane x k)) :=
  gathered_of x0 xp xn p y x _ 0 k (by show (0 + k.val) / 8 = 0; omega) (by show (0 + k.val) % 8 = k.val; omega)
theorem gathered_1 (k : Fin 8) : Cert.Lattice.slabGathered x0 xp xn p y x (grp 8 (by decide) k)
    = x0 (ix3 p y (Cert.Lattice.lane (Cert.Lattice.down x) k)) :=
  gathered_of x0 xp xn p y x _ 1 k (by show (8 + k.val) / 8 = 1; omega) (by show (8 + k.val) % 8 = k.val; omega)
theorem gathered_2 (k : Fin 8) : Cert.Lattice.slabGathered x0 xp xn p y x (grp 16 (by decide) k)
    = x0 (ix3 p y (Cert.Lattice.lane (Cert.Lattice.up x) k)) :=
  gathered_of x0 xp xn p y x _ 2 k (by show (16 + k.val) / 8 = 2; omega) (by show (16 + k.val) % 8 = k.val; omega)
theorem gathered_3 (k : Fin 8) : Cert.Lattice.slabGathered x0 xp xn p y x (grp 24 (by decide) k)
    = x0 (ix3 p (Cert.Lattice.down y) (Cert.Lattice.lane x k)) :=
  gathered_of x0 xp xn p y x _ 3 k (by show (24 + k.val) / 8 = 3; omega) (by show (24 + k.val) % 8 = k.val; omega)
theorem gathered_4 (k : Fin 8) : Cert.Lattice.slabGathered x0 xp xn p y x (grp 32 (by decide) k)
    = x0 (ix3 p (Cert.Lattice.up y) (Cert.Lattice.lane x k)) :=
  gathered_of x0 xp xn p y x _ 4 k (by show (32 + k.val) / 8 = 4; omega) (by show (32 + k.val) % 8 = k.val; omega)
theorem gathered_5 (k : Fin 8) : Cert.Lattice.slabGathered x0 xp xn p y x (grp 40 (by decide) k)
    = if h : p.val = 0 then xp (ix3 (0 : Fin 1) y (Cert.Lattice.lane x k)) else x0 (ix3 (⟨p.val - 1, by omega⟩ : Fin 8) y (Cert.Lattice.lane x k)) :=
  gathered_of x0 xp xn p y x _ 5 k (by show (40 + k.val) / 8 = 5; omega) (by show (40 + k.val) % 8 = k.val; omega)
theorem gathered_6 (k : Fin 8) : Cert.Lattice.slabGathered x0 xp xn p y x (grp 48 (by decide) k)
    = if h : p.val = 7 then xn (ix3 (0 : Fin 1) y (Cert.Lattice.lane x k)) else x0 (ix3 (⟨p.val + 1, by omega⟩ : Fin 8) y (Cert.Lattice.lane x k)) :=
  gathered_of x0 xp xn p y x _ 6 k (by show (48 + k.val) / 8 = 6; omega) (by show (48 + k.val) % 8 = k.val; omega)

end Gathered

/-- A sum over 56 places is the sum of its seven consecutive groups of 8. -/
theorem sum_groups {M : Type} [AddCommMonoid M] (f : Fin 56 → M) :
    ∑ k : Fin 56, f k
      = (∑ k : Fin 8, f (grp 0 (by decide) k)) + (∑ k : Fin 8, f (grp 8 (by decide) k)) + (∑ k : Fin 8, f (grp 16 (by decide) k))
        + (∑ k : Fin 8, f (grp 24 (by decide) k)) + (∑ k : Fin 8, f (grp 32 (by decide) k)) + (∑ k : Fin 8, f (grp 40 (by decide) k))
        + (∑ k : Fin 8, f (grp 48 (by decide) k)) := by
  have e : ∀ (d : Fin 7) (k : Fin 8), (finProdFinEquiv (d, k) : Fin (7 * 8)) = (⟨8 * d.val + k.val, by omega⟩ : Fin 56) :=
    fun d k => Fin.ext (by show k.val + 8 * d.val = 8 * d.val + k.val; omega)
  rw [← Equiv.sum_comp (finProdFinEquiv : Fin 7 × Fin 8 ≃ Fin (7 * 8)) f, Fintype.sum_prod_type]
  simp only [e]
  rw [Fin.sum_univ_seven]
  rfl

/-- One group's product at the site (p, y, x), column h: the 8 numbers g of the (moved) slab at the site against rows
    o … o + 7 of the first weight matrix. -/
theorem group_apply (v : FVec Ideal S8x128x1024 .f32) (w1 : FVec Ideal S56x16 .f32) (o : Nat) (hs : S56x16.Slices ![o, 0] S8x16)
    (ho : o + 8 ≤ 56) (p : Fin 8) (y x : Fin 128) (h : Fin 16) (g : Fin 8 → EReal)
    (hg : ∀ k, v (ix3 p y (Cert.Lattice.lane x k)) = g k) :
    matmul dot_S131072x8_S8x16_S131072x16_1_0_0_1_n_n none (shapeCast S131072x8 v shapeCasts_S8x128x1024_S131072x8)
        (extractStridedSlice S8x16 ![o, 0] w1 hs) (constant (F := Ideal) S131072x16 .f32 0x00000000#32) (ix2 (row p y x) h)
      = ∑ k : Fin 8, g k * w1 (ix2 (grp o ho k) h) := by
  refine (layer1_apply _ _ _ h).trans (Finset.sum_congr rfl fun k _ => ?_)
  rw [rows_apply, w1_rows w1 o hs ho, hg k]
  rfl

/-- The slab as loaded is the slab. -/
theorem pay2_eq (x0 : Vec Ideal S8x128x1024 .f32) : k0_pay2 (F := Ideal) x0 = x0 := shapeCast_self _ _

theorem add5 {a b c d e a' b' c' d' e' : EReal} (ha : a = a') (hb : b = b') (hc : c = c') (hd : d = d') (he : e = e') :
    a + b + c + d + e = a' + b' + c' + d' + e' := by rw [ha, hb, hc, hd, he]

/-- The first five groups: the site itself and its neighbours in x and in y. -/
theorem pay4_apply (x0 : Vec Ideal S8x128x1024 .f32) (xp xn : Vec Ideal S1x128x1024 .f32) (w1 : Vec Ideal S56x16 .f32)
    (p : Fin 8) (y x : Fin 128) (h : Fin 16) :
    k0_pay4 (F := Ideal) x0 w1 (ix2 (row p y x) h)
      = (∑ k : Fin 8, Cert.Lattice.slabGathered x0 xp xn p y x (grp 0 (by decide) k) * w1 (ix2 (grp 0 (by decide) k) h))
        + (∑ k : Fin 8, Cert.Lattice.slabGathered x0 xp xn p y x (grp 8 (by decide) k) * w1 (ix2 (grp 8 (by decide) k) h))
        + (∑ k : Fin 8, Cert.Lattice.slabGathered x0 xp xn p y x (grp 16 (by decide) k) * w1 (ix2 (grp 16 (by decide) k) h))
        + (∑ k : Fin 8, Cert.Lattice.slabGathered x0 xp xn p y x (grp 24 (by decide) k) * w1 (ix2 (grp 24 (by decide) k) h))
        + (∑ k : Fin 8, Cert.Lattice.slabGathered x0 xp xn p y x (grp 32 (by decide) k) * w1 (ix2 (grp 32 (by decide) k) h)) := by
  unfold k0_pay4
  simp only [pay2_eq, addf_apply]
  exact add5
    (group_apply _ w1 0 _ (by decide) p y x h _ fun k => (gathered_0 x0 xp xn p y x k).symm)
    (group_apply _ w1 8 _ (by decide) p y x h _ fun k => (lanes_down x0 p y x k).trans (gathered_1 x0 xp xn p y x k).symm)
    (group_apply _ w1 16 _ (by decide) p y x h _ fun k => (lanes_up x0 p y x k).trans (gathered_2 x0 xp xn p y x k).symm)
    (group_apply _ w1 24 _ (by decide) p y x h _ fun k => (rows_down x0 p y _).trans (gathered_3 x0 xp xn p y x k).symm)
    (group_apply _ w1 32 _ (by decide) p y x h _ fun k => (rows_up x0 p y _).trans (gathered_4 x0 xp xn p y x k).symm)

/-- What is stored, at a site, from the first five groups' sum v32 and the two z-neighbour groups g5 and g6. -/
theorem pay1_apply (v1 : FVec Ideal S8x128x1024 .f32) (v5 : FVec Ideal S128x1024 .f32) (v6 : FVec Ideal S56x16 .f32)
    (v7 : FVec Ideal S16 .f32) (v8 : FVec Ideal S16x8 .f32) (v9 : FVec Ideal S8 .f32) (v32 : FVec Ideal S131072x16 .f32)
    (v33 : FVec Ideal S1x128x1024 .f32) (v34 : FVec Ideal S7x128x1024 .f32) (p : Fin 8) (y x : Fin 128) (s : Fin 8)
    (g5 g6 : Fin 8 → EReal)
    (h5 : ∀ k, concatenate S8x128x1024 0 [⟨S1x128x1024, v33⟩, ⟨S7x128x1024, v34⟩]
      concatenates_S1x128x1024_S7x128x1024_S8x128x1024_d0 (ix3 p y (Cert.Lattice.lane x k)) = g5 k)
    (h6 : ∀ k, concatenate S8x128x1024 0 [⟨S7x128x1024, extractStridedSlice S7x128x1024 ![1, 0, 0] v1 slices_S8x128x1024_o1_0_0_S7x128x1024⟩,
      ⟨S1x128x1024, shapeCast S1x128x1024 v5 shapeCasts_S128x1024_S1x128x1024⟩]
      concatenates_S7x128x1024_S1x128x1024_S8x128x1024_d0 (ix3 p y (Cert.Lattice.lane x k)) = g6 k) :
    k0_pay1 (F := Ideal) v1 v5 v6 v7 v8 v9 v32 v33 v34 (ix3 p y (Cert.Lattice.lane x s))
      = (∑ h : Fin 16, Ideal.tanh (v32 (ix2 (row p y x) h) + (∑ k : Fin 8, g5 k * v6 (ix2 (grp 40 (by decide) k) h))
            + (∑ k : Fin 8, g6 k * v6 (ix2 (grp 48 (by decide) k) h)) + v7 (ix1 h)) * v8 (ix2 h s)) + v9 (ix1 s) := by
  unfold k0_pay1
  refine (slab_apply _ p y x s).trans ?_
  simp only [addf_apply]
  refine congrArg₂ (· + ·) ((layer2_apply _ v8 _ s).trans (Finset.sum_congr rfl fun h _ => ?_)) (bias2_apply v9 _ s)
  refine congrArg (· * v8 (ix2 h s)) ?_
  show Ideal.tanh _ = Ideal.tanh _
  refine congrArg Ideal.tanh ?_
  simp only [addf_apply]
  refine congrArg₂ (· + ·) (congrArg₂ (· + ·) (congrArg₂ (· + ·) rfl ?_) ?_) (bias1_apply v7 _ h)
  · exact group_apply _ v6 40 _ (by decide) p y x h g5 h5
  · exact group_apply _ v6 48 _ (by decide) p y x h g6 h6

end Cert.KernelIdeal.Stencil.StoredAt

namespace Cert.KernelIdeal.Stencil

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.KernelIdeal.Stencil.StoredAt

/-- The stored value at lane `8·x + s` of row `y` of plane `p` is the slab's result at the site `(p, y, x)`. -/
theorem stored_apply (x0 : Vec Ideal S8x128x1024 .f32) (xp xn : Vec Ideal S1x128x1024 .f32) (w1 : Vec Ideal S56x16 .f32)
    (b1 : Vec Ideal S16 .f32) (w2 : Vec Ideal S16x8 .f32) (b2 : Vec Ideal S8 .f32) (p : Fin 8) (y x : Fin 128) (s : Fin 8) :
    stored (F := Ideal) x0 xp xn w1 b1 w2 b2 (ix3 p y (Cert.Lattice.lane x s))
      = Cert.Lattice.slabResult x0 xp xn w1 b1 w2 b2 p y x s := by
  unfold stored
  refine (pay1_apply _ _ w1 b1 w2 b2 _ _ _ p y x s
    (fun k => Cert.Lattice.slabGathered x0 xp xn p y x (grp 40 (by decide) k))
    (fun k => Cert.Lattice.slabGathered x0 xp xn p y x (grp 48 (by decide) k)) (fun k => ?_) (fun k => ?_)).trans ?_
  · -- the plane below: `xp` under the slab's first plane, else the slab's plane one down
    unfold k0_pay6
    refine (planes_down (k0_pay2 (F := Ideal) x0) (k0_pay5 (F := Ideal) xp) p y _).trans ?_
    rw [gathered_5]
    by_cases h : p.val = 0
    · rw [dif_pos h, dif_pos h]
      exact plane_apply xp y _
    · rw [dif_neg h, dif_neg h]
      exact congrFun (pay2_eq x0) _
  · -- the plane above: `xn` over the slab's last plane, else the slab's plane one up
    refine (planes_up (k0_pay2 (F := Ideal) x0) _ p y _).trans ?_
    rw [gathered_6]
    by_cases h : p.val = 7
    · rw [dif_pos h, dif_pos h]
      exact plane_apply xn y _
    · rw [dif_neg h, dif_neg h]
      exact congrFun (pay2_eq x0) _
  · unfold Cert.Lattice.slabResult
    refine congrArg (· + b2 (ix1 s)) (Finset.sum_congr rfl fun h _ => ?_)
    refine congrArg (fun t => Ideal.tanh (t + b1 (ix1 h)) * w2 (ix2 h s)) ?_
    rw [pay4_apply x0 xp xn w1 p y x h, sum_groups]

end Cert.KernelIdeal.Stencil

end
-- ==== Proof.KI.Result.lean ====
/-
  The kernel's result array is the lattice update: grid point `t` writes the update of planes `8t … 8t + 7`, computed
  from that slab and the planes `8t − 1` and `8t + 8` (modulo 128) of the re-laid `states`; the 16 slabs tile the
  array, and re-laying it as 2 097 152 rows of 8 gives the update row by row.
-/
import proofs.«423289_j38293928411137_4_alg».proof.Proof.KI.Data
import proofs.«423289_j38293928411137_4_alg».proof.Proof.KI.StoredAt
import proofs.«423289_j38293928411137_4_alg».proof.Proof.Spec
import Idealize.ShloMosaic.Lib.Pipeline.Value
import Idealize.ShloMosaic.Lib.ValueIdx
import Idealize.ShloMosaic.Lib.StableHlo.Run

set_option maxRecDepth 16384

noncomputable section

/-! ## The re-laid states and one slab of them -/

namespace Cert.Lattice.Relaid

open Idealize.ShloMosaic Idealize.ShloMosaic.ValueIdx

/-- The states re-laid as 128 planes of 128 rows of 1024 numbers: lane 8·x + s of row y of plane z is number s of
    the site (z, y, x). -/
def planes (st : (⟨2, ![2097152, 8]⟩ : Shape).Idx → EReal) : (⟨3, ![128, 128, 1024]⟩ : Shape).Idx → EReal :=
  fun j => st (ix2 (site (j 0) (j 1) ⟨(j 2).val / 8, by have h : (j 2).val < 1024 := (j 2).isLt; omega⟩) (⟨(j 2).val % 8, Nat.mod_lt _ (by decide)⟩ : Fin 8))

theorem planes_apply (st : (⟨2, ![2097152, 8]⟩ : Shape).Idx → EReal) (z y : Fin 128) (l : Fin 1024) :
    planes st (ix3 z y l)
      = st (ix2 (site z y (⟨l.val / 8, by omega⟩ : Fin 128)) (⟨l.val % 8, Nat.mod_lt _ (by decide)⟩ : Fin 8)) := rfl

theorem planes_lane (st : (⟨2, ![2097152, 8]⟩ : Shape).Idx → EReal) (z y x : Fin 128) (s : Fin 8) :
    planes st (ix3 z y (lane x s)) = st (ix2 (site z y x) s) := by
  unfold planes
  have hx : (⟨(ix3 z y (lane x s) 2).val / 8, by have h : (ix3 z y (lane x s) 2).val < 1024 := (ix3 z y (lane x s) 2).isLt; omega⟩ : Fin 128) = x :=
    Fin.ext (by show (x.val * 8 + s.val) / 8 = x.val; omega)
  have hs : (⟨(ix3 z y (lane x s) 2).val % 8, Nat.mod_lt _ (by decide)⟩ : Fin 8) = s :=
    Fin.ext (by show (x.val * 8 + s.val) % 8 = s.val; omega)
  rw [hx, hs]

/-- A slab of the re-laid states — planes 8·t … 8·t + 7, with the planes 8·t − 1 and 8·t + 8 (modulo 128) beside it —
    gathers at its site (p, y, x) what the lattice gathers at (8·t + p, y, x). -/
theorem slabGathered_planes (st : (⟨2, ![2097152, 8]⟩ : Shape).Idx → EReal)
    (x0 : (⟨3, ![8, 128, 1024]⟩ : Shape).Idx → EReal) (xp xn : (⟨3, ![1, 128, 1024]⟩ : Shape).Idx → EReal) (t : Nat) (ht : t < 16)
    (h0 : ∀ (p : Fin 8) (y : Fin 128) (l : Fin 1024), x0 (ix3 p y l) = planes st (ix3 (⟨8 * t + p.val, by omega⟩ : Fin 128) y l))
    (hp : ∀ (y : Fin 128) (l : Fin 1024), xp (ix3 (0 : Fin 1) y l) = planes st (ix3 (⟨(8 * t + 127) % 128, Nat.mod_lt _ (by decide)⟩ : Fin 128) y l))
    (hn : ∀ (y : Fin 128) (l : Fin 1024), xn (ix3 (0 : Fin 1) y l) = planes st (ix3 (⟨(8 * t + 8) % 128, Nat.mod_lt _ (by decide)⟩ : Fin 128) y l))
    (p : Fin 8) (y x : Fin 128) (k : Fin 56) :
    slabGathered x0 xp xn p y x k = gathered st (⟨8 * t + p.val, by omega⟩ : Fin 128) y x k := by
  unfold slabGathered gathered
  dsimp only
  generalize (⟨k.val % 8, Nat.mod_lt _ (by decide)⟩ : Fin 8) = s
  generalize (⟨k.val / 8, by omega⟩ : Fin 7) = d
  match d with
  | 0 => show x0 _ = st (ix2 (site _ y x) s); rw [h0, planes_lane]
  | 1 => show x0 _ = st (ix2 (site _ y (down x)) s); rw [h0, planes_lane]
  | 2 => show x0 _ = st (ix2 (site _ y (up x)) s); rw [h0, planes_lane]
  | 3 => show x0 _ = st (ix2 (site _ (down y) x) s); rw [h0, planes_lane]
  | 4 => show x0 _ = st (ix2 (site _ (up y) x) s); rw [h0, planes_lane]
  | 5 =>
    show (if h : p.val = 0 then xp _ else x0 _) = st (ix2 (site (down _) y x) s)
    by_cases h : p.val = 0
    · rw [dif_pos h, hp, planes_lane]
      congr 3; apply Fin.ext; show (8 * t + 127) % 128 = (8 * t + p.val + 127) % 128; rw [h]
    · rw [dif_neg h, h0, planes_lane]
      congr 3; apply Fin.ext; show 8 * t + (p.val - 1) = (8 * t + p.val + 127) % 128; omega
  | 6 =>
    show (if h : p.val = 7 then xn _ else x0 _) = st (ix2 (site (up _) y x) s)
    by_cases h : p.val = 7
    · rw [dif_pos h, hn, planes_lane]
      congr 3; apply Fin.ext; show (8 * t + 8) % 128 = (8 * t + p.val + 1) % 128; rw [h]
    · rw [dif_neg h, h0, planes_lane]
      congr 3; apply Fin.ext; show 8 * t + (p.val + 1) = (8 * t + p.val + 1) % 128; omega

/-- So the slab's result at (p, y, x) is the lattice's at (8·t + p, y, x). -/
theorem slabResult_planes (st : (⟨2, ![2097152, 8]⟩ : Shape).Idx → EReal) (w1 : (⟨2, ![56, 16]⟩ : Shape).Idx → EReal)
    (b1 : (⟨1, ![16]⟩ : Shape).Idx → EReal) (w2 : (⟨2, ![16, 8]⟩ : Shape).Idx → EReal) (b2 : (⟨1, ![8]⟩ : Shape).Idx → EReal)
    (x0 : (⟨3, ![8, 128, 1024]⟩ : Shape).Idx → EReal) (xp xn : (⟨3, ![1, 128, 1024]⟩ : Shape).Idx → EReal) (t : Nat) (ht : t < 16)
    (h0 : ∀ (p : Fin 8) (y : Fin 128) (l : Fin 1024), x0 (ix3 p y l) = planes st (ix3 (⟨8 * t + p.val, by omega⟩ : Fin 128) y l))
    (hp : ∀ (y : Fin 128) (l : Fin 1024), xp (ix3 (0 : Fin 1) y l) = planes st (ix3 (⟨(8 * t + 127) % 128, Nat.mod_lt _ (by decide)⟩ : Fin 128) y l))
    (hn : ∀ (y : Fin 128) (l : Fin 1024), xn (ix3 (0 : Fin 1) y l) = planes st (ix3 (⟨(8 * t + 8) % 128, Nat.mod_lt _ (by decide)⟩ : Fin 128) y l))
    (p : Fin 8) (y x : Fin 128) (s : Fin 8) :
    slabResult x0 xp xn w1 b1 w2 b2 p y x s = result st w1 b1 w2 b2 (⟨8 * t + p.val, by omega⟩ : Fin 128) y x s := by
  unfold slabResult result hidden
  simp only [slabGathered_planes st x0 xp xn t ht h0 hp hn]

end Cert.Lattice.Relaid

namespace Cert.Lattice.Relaid

open Idealize.ShloMosaic Idealize.ShloMosaic.ValueIdx

/-- The result laid out as the states are re-laid: lane 8·x + s of row y of plane z is the result's number s at the
    site (z, y, x). -/
def resultPlanes (st : (⟨2, ![2097152, 8]⟩ : Shape).Idx → EReal) (w1 : (⟨2, ![56, 16]⟩ : Shape).Idx → EReal)
    (b1 : (⟨1, ![16]⟩ : Shape).Idx → EReal) (w2 : (⟨2, ![16, 8]⟩ : Shape).Idx → EReal) (b2 : (⟨1, ![8]⟩ : Shape).Idx → EReal) :
    (⟨3, ![128, 128, 1024]⟩ : Shape).Idx → EReal :=
  fun j => result st w1 b1 w2 b2 (j 0) (j 1) ⟨(j 2).val / 8, by have h : (j 2).val < 1024 := (j 2).isLt; omega⟩
    (⟨(j 2).val % 8, Nat.mod_lt _ (by decide)⟩ : Fin 8)

theorem resultPlanes_apply (st : (⟨2, ![2097152, 8]⟩ : Shape).Idx → EReal) (w1 : (⟨2, ![56, 16]⟩ : Shape).Idx → EReal)
    (b1 : (⟨1, ![16]⟩ : Shape).Idx → EReal) (w2 : (⟨2, ![16, 8]⟩ : Shape).Idx → EReal) (b2 : (⟨1, ![8]⟩ : Shape).Idx → EReal)
    (z y : Fin 128) (l : Fin 1024) :
    resultPlanes st w1 b1 w2 b2 (ix3 z y l)
      = result st w1 b1 w2 b2 z y (⟨l.val / 8, by omega⟩ : Fin 128) (⟨l.val % 8, Nat.mod_lt _ (by decide)⟩ : Fin 8) := rfl

theorem resultPlanes_lane (st : (⟨2, ![2097152, 8]⟩ : Shape).Idx → EReal) (w1 : (⟨2, ![56, 16]⟩ : Shape).Idx → EReal)
    (b1 : (⟨1, ![16]⟩ : Shape).Idx → EReal) (w2 : (⟨2, ![16, 8]⟩ : Shape).Idx → EReal) (b2 : (⟨1, ![8]⟩ : Shape).Idx → EReal)
    (z y x : Fin 128) (s : Fin 8) :
    resultPlanes st w1 b1 w2 b2 (ix3 z y (lane x s)) = result st w1 b1 w2 b2 z y x s := by
  rw [resultPlanes_apply]
  have hx : (⟨(lane x s).val / 8, by have h : (lane x s).val < 1024 := (lane x s).isLt; omega⟩ : Fin 128) = x :=
    Fin.ext (by show (x.val * 8 + s.val) / 8 = x.val; omega)
  have hs : (⟨(lane x s).val % 8, Nat.mod_lt _ (by decide)⟩ : Fin 8) = s :=
    Fin.ext (by show (x.val * 8 + s.val) % 8 = s.val; omega)
  rw [hx, hs]

/-- Every lane is the lane of one number of one site. -/
theorem lane_div_mod (l : Fin 1024) :
    lane (⟨l.val / 8, by omega⟩ : Fin 128) (⟨l.val % 8, Nat.mod_lt _ (by decide)⟩ : Fin 8) = l :=
  Fin.ext (by show l.val / 8 * 8 + l.val % 8 = l.val; omega)

end Cert.Lattice.Relaid

namespace Cert.KernelIdeal.Stencil

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

namespace Tiling

variable (m : (ℓ : Loc nD τ sig) → Buf (Elt Ideal) ℓ)

/-! ## The arrays the region finds -/

/-- The lattice windows' array is the first argument re-laid as 128 planes of 128 rows of 1024. -/
theorem V_v0 (c : Dev nD) : (V (F := Ideal) m c main_v0 : S128x128x1024.Idx → EReal)
    = shapeCast S128x128x1024 (m ((c.tc : Thread nD τ).loc main_arg0) : S2097152x8.Idx → EReal) shapeCasts_S2097152x8_S128x128x1024 := by
  dsimp only [V, V0]
  simp only [hostOps0, List.flatten_cons, List.flatten_nil, List.append_nil]
  after_results
  rfl

/-- The parameter windows' arrays are the arguments themselves. -/
theorem V_arg1 (c : Dev nD) : (V (F := Ideal) m c main_arg1 : S56x16.Idx → EReal) = m ((c.tc : Thread nD τ).loc main_arg1) := by
  dsimp only [V, V0]
  simp only [hostOps0, List.flatten_cons, List.flatten_nil, List.append_nil]
  after_results
theorem V_arg2 (c : Dev nD) : (V (F := Ideal) m c main_arg2 : S16.Idx → EReal) = m ((c.tc : Thread nD τ).loc main_arg2) := by
  dsimp only [V, V0]
  simp only [hostOps0, List.flatten_cons, List.flatten_nil, List.append_nil]
  after_results
theorem V_arg3 (c : Dev nD) : (V (F := Ideal) m c main_arg3 : S16x8.Idx → EReal) = m ((c.tc : Thread nD τ).loc main_arg3) := by
  dsimp only [V, V0]
  simp only [hostOps0, List.flatten_cons, List.flatten_nil, List.append_nil]
  after_results
theorem V_arg4 (c : Dev nD) : (V (F := Ideal) m c main_arg4 : S8.Idx → EReal) = m ((c.tc : Thread nD τ).loc main_arg4) := by
  dsimp only [V, V0]
  simp only [hostOps0, List.flatten_cons, List.flatten_nil, List.append_nil]
  after_results

/-- Read at (z, y, l), the re-laid array is the planes of the first argument. -/
theorem V_v0_apply (c : Dev nD) (z y : Fin 128) (l : Fin 1024) :
    (V (F := Ideal) m c main_v0 : S128x128x1024.Idx → EReal) (ix3 z y l)
      = Cert.Lattice.Relaid.planes (m ((c.tc : Thread nD τ).loc main_arg0)) (ix3 z y l) := by
  rw [V_v0, Cert.Lattice.Relaid.planes_apply]
  refine shapeCast_apply (s := S2097152x8) (t := S128x128x1024) _ _ (ix3 z y l)
    (ix2 (Cert.Lattice.site z y (⟨l.val / 8, by omega⟩ : Fin 128)) (⟨l.val % 8, Nat.mod_lt _ (by decide)⟩ : Fin 8)) ?_
  rw [Shape.rowMajor_val_two, Shape.rowMajor_val_three]
  show (z.val * 16384 + y.val * 128 + l.val / 8) * 8 + l.val % 8 = (z.val * 128 + y.val) * 1024 + l.val
  omega

/-! ## The index maps over the grid -/

/-- The slab and the output move with the point; the plane below is plane 8·t − 1 and the plane above plane 8·t + 8,
    both modulo 128. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = (8 * t.val + 127) % 128 ∧ win0_1.index t (1 : Fin 3) = 0 ∧ win0_1.index t (2 : Fin 3) = 0
    ∧ win0_2.index t (0 : Fin 3) = (8 * t.val + 8) % 128 ∧ win0_2.index t (1 : Fin 3) = 0 ∧ win0_2.index t (2 : Fin 3) = 0
    ∧ win0_7.index t (0 : Fin 3) = t.val ∧ win0_7.index t (1 : Fin 3) = 0 ∧ win0_7.index t (2 : Fin 3) = 0 :=
  (by decide +kernel : ∀ t : Fin grid0.N, _)

/-- The parameter windows stay at block 0. -/
theorem idx_facts_par : ∀ t : Fin cfg0.N,
    win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0 :=
  (by decide +kernel : ∀ t : Fin grid0.N, _)

theorem lt_N (t : Fin cfg0.N) : t.val < 16 := lt_of_lt_of_eq t.isLt N_0

/-! ## The input blocks -/

abbrev slab (c : Dev nD) (t : Fin cfg0.N) : Vec Ideal S8x128x1024 .f32 := iblk (F := Ideal) m c 0 t
abbrev below (c : Dev nD) (t : Fin cfg0.N) : Vec Ideal S1x128x1024 .f32 := iblk (F := Ideal) m c 1 t
abbrev above (c : Dev nD) (t : Fin cfg0.N) : Vec Ideal S1x128x1024 .f32 := iblk (F := Ideal) m c 2 t
abbrev bW1 (c : Dev nD) (t : Fin cfg0.N) : Vec Ideal S56x16 .f32 := iblk (F := Ideal) m c 3 t
abbrev bB1 (c : Dev nD) (t : Fin cfg0.N) : Vec Ideal S16 .f32 := iblk (F := Ideal) m c 4 t
abbrev bW2 (c : Dev nD) (t : Fin cfg0.N) : Vec Ideal S16x8 .f32 := iblk (F := Ideal) m c 5 t
abbrev bB2 (c : Dev nD) (t : Fin cfg0.N) : Vec Ideal S8 .f32 := iblk (F := Ideal) m c 6 t

/-- The slab at point t is planes 8·t … 8·t + 7 of the re-laid first argument. -/
theorem slab_apply (c : Dev nD) (t : Fin cfg0.N) (p : Fin 8) (y : Fin 128) (l : Fin 1024) :
    slab m c t (ix3 p y l)
      = Cert.Lattice.Relaid.planes (m ((c.tc : Thread nD τ).loc main_arg0)) (ix3 (⟨8 * t.val + p.val, by have := lt_N t; omega⟩ : Fin 128) y l) := by
  obtain ⟨e0, e1, e2, -⟩ := idx_facts t
  rw [← V_v0_apply m c]
  show V m c main_v0 (((cfg0.win 0).blk t).view.emb (ix3 p y l)) = V m c main_v0 _
  refine congrArg _ (funext fun a => Fin.ext ?_)
  match a with
  | ⟨0, _⟩ => show win0_0.index t (0 : Fin 3) * 8 + 1 * p.val = 8 * t.val + p.val; omega
  | ⟨1, _⟩ => show win0_0.index t (1 : Fin 3) * 128 + 1 * y.val = y.val; omega
  | ⟨2, _⟩ => show win0_0.index t (2 : Fin 3) * 1024 + 1 * l.val = l.val; omega

/-- The plane below it is plane 8·t − 1 modulo 128. -/
theorem below_apply (c : Dev nD) (t : Fin cfg0.N) (y : Fin 128) (l : Fin 1024) :
    below m c t (ix3 (0 : Fin 1) y l)
      = Cert.Lattice.Relaid.planes (m ((c.tc : Thread nD τ).loc main_arg0)) (ix3 (⟨(8 * t.val + 127) % 128, Nat.mod_lt _ (by decide)⟩ : Fin 128) y l) := by
  obtain ⟨-, -, -, e0, e1, e2, -⟩ := idx_facts t
  rw [← V_v0_apply m c]
  show V m c main_v0 (((cfg0.win 1).blk t).view.emb (ix3 (0 : Fin 1) y l)) = V m c main_v0 _
  refine congrArg _ (funext fun a => Fin.ext ?_)
  match a with
  | ⟨0, _⟩ => show win0_1.index t (0 : Fin 3) * 1 + 1 * 0 = (8 * t.val + 127) % 128; omega
  | ⟨1, _⟩ => show win0_1.index t (1 : Fin 3) * 128 + 1 * y.val = y.val; omega
  | ⟨2, _⟩ => show win0_1.index t (2 : Fin 3) * 1024 + 1 * l.val = l.val; omega

/-- The plane above it is plane 8·t + 8 modulo 128. -/
theorem above_apply (c : Dev nD) (t : Fin cfg0.N) (y : Fin 128) (l : Fin 1024) :
    above m c t (ix3 (0 : Fin 1) y l)
      = Cert.Lattice.Relaid.planes (m ((c.tc : Thread nD τ).loc main_arg0)) (ix3 (⟨(8 * t.val + 8) % 128, Nat.mod_lt _ (by decide)⟩ : Fin 128) y l) := by
  obtain ⟨-, -, -, -, -, -, e0, e1, e2, -⟩ := idx_facts t
  rw [← V_v0_apply m c]
  show V m c main_v0 (((cfg0.win 2).blk t).view.emb (ix3 (0 : Fin 1) y l)) = V m c main_v0 _
  refine congrArg _ (funext fun a => Fin.ext ?_)
  match a with
  | ⟨0, _⟩ => show win0_2.index t (0 : Fin 3) * 1 + 1 * 0 = (8 * t.val + 8) % 128; omega
  | ⟨1, _⟩ => show win0_2.index t (1 : Fin 3) * 128 + 1 * y.val = y.val; omega
  | ⟨2, _⟩ => show win0_2.index t (2 : Fin 3) * 1024 + 1 * l.val = l.val; omega

/-- Each parameter block is its whole argument. -/
theorem bW1_eq (c : Dev nD) (t : Fin cfg0.N) : bW1 m c t = m ((c.tc : Thread nD τ).loc main_arg1) := by
  obtain ⟨e0, e1, -⟩ := idx_facts_par t
  rw [← V_arg1 m c]
  funext j
  show V m c main_arg1 (((cfg0.win 3).blk t).view.emb j) = V m c main_arg1 j
  refine congrArg _ (funext fun a => Fin.ext ?_)
  match a with
  | ⟨0, _⟩ => show win0_3.index t (0 : Fin 2) * 56 + 1 * (j 0).val = (j 0).val; omega
  | ⟨1, _⟩ => show win0_3.index t (1 : Fin 2) * 16 + 1 * (j 1).val = (j 1).val; omega
theorem bB1_eq (c : Dev nD) (t : Fin cfg0.N) : bB1 m c t = m ((c.tc : Thread nD τ).loc main_arg2) := by
  obtain ⟨-, -, e0, -⟩ := idx_facts_par t
  rw [← V_arg2 m c]
  funext j
  show V m c main_arg2 (((cfg0.win 4).blk t).view.emb j) = V m c main_arg2 j
  refine congrArg _ (funext fun a => Fin.ext ?_)
  match a with
  | ⟨0, _⟩ => show win0_4.index t (0 : Fin 1) * 16 + 1 * (j 0).val = (j 0).val; omega
theorem bW2_eq (c : Dev nD) (t : Fin cfg0.N) : bW2 m c t = m ((c.tc : Thread nD τ).loc main_arg3) := by
  obtain ⟨-, -, -, e0, e1, -⟩ := idx_facts_par t
  rw [← V_arg3 m c]
  funext j
  show V m c main_arg3 (((cfg0.win 5).blk t).view.emb j) = V m c main_arg3 j
  refine congrArg _ (funext fun a => Fin.ext ?_)
  match a with
  | ⟨0, _⟩ => show win0_5.index t (0 : Fin 2) * 16 + 1 * (j 0).val = (j 0).val; omega
  | ⟨1, _⟩ => show win0_5.index t (1 : Fin 2) * 8 + 1 * (j 1).val = (j 1).val; omega
theorem bB2_eq (c : Dev nD) (t : Fin cfg0.N) : bB2 m c t = m ((c.tc : Thread nD τ).loc main_arg4) := by
  obtain ⟨-, -, -, -, -, e0⟩ := idx_facts_par t
  rw [← V_arg4 m c]
  funext j
  show V m c main_arg4 (((cfg0.win 6).blk t).view.emb j) = V m c main_arg4 j
  refine congrArg _ (funext fun a => Fin.ext ?_)
  match a with
  | ⟨0, _⟩ => show win0_6.index t (0 : Fin 1) * 8 + 1 * (j 0).val = (j 0).val; omega

/-! ## What a point writes back -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The output array the run is to leave: the result of the launch arguments, plane by plane. -/
abbrev G (c : Dev nD) : S128x128x1024.Idx → EReal :=
  Cert.Lattice.Relaid.resultPlanes (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))

/-- What the body stores at point t, at lane 8·x + s of row y of plane p, is the result at the site (8·t + p, y, x). -/
theorem stored_lane (c : Dev nD) (t : Fin cfg0.N) (p : Fin 8) (y x : Fin 128) (s : Fin 8) :
    stored (F := Ideal) (slab m c t) (below m c t) (above m c t) (bW1 m c t) (bB1 m c t) (bW2 m c t) (bB2 m c t)
        (ix3 p y (Cert.Lattice.lane x s))
      = Cert.Lattice.result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (⟨8 * t.val + p.val, by have := lt_N t; omega⟩ : Fin 128) y x s := by
  refine (stored_apply (slab m c t) (below m c t) (above m c t) (bW1 m c t) (bB1 m c t) (bW2 m c t) (bB2 m c t) p y x s).trans ?_
  rw [bW1_eq, bB1_eq, bW2_eq, bB2_eq]
  exact Cert.Lattice.Relaid.slabResult_planes _ _ _ _ _ (slab m c t) (below m c t) (above m c t) t.val (lt_N t)
    (slab_apply m c t) (below_apply m c t) (above_apply m c t) p y x s

/-- The same at any index of the block, against the array index it is written to. -/
theorem stored_at (c : Dev nD) (t : Fin cfg0.N) (j : S8x128x1024.Idx) (i : S128x128x1024.Idx)
    (h0 : (i 0).val = 8 * t.val + (j 0).val) (h1 : (i 1).val = (j 1).val) (h2 : (i 2).val = (j 2).val) :
    stored (F := Ideal) (slab m c t) (below m c t) (above m c t) (bW1 m c t) (bB1 m c t) (bW2 m c t) (bB2 m c t) j = G m c i := by
  obtain ⟨p, y, l, rfl⟩ : ∃ (p : Fin 8) (y : Fin 128) (l : Fin 1024), j = ix3 p y l := ⟨j 0, j 1, j 2, eq_ix3 j⟩
  have hb : 8 * t.val + p.val < 128 := by have := lt_N t; omega
  obtain ⟨z, y', l', rfl⟩ : ∃ (z : Fin 128) (y' : Fin 128) (l' : Fin 1024), i = ix3 z y' l' := ⟨i 0, i 1, i 2, eq_ix3 i⟩
  obtain rfl : z = (⟨8 * t.val + p.val, hb⟩ : Fin 128) := Fin.ext h0
  obtain rfl : y' = y := Fin.ext h1
  obtain rfl : l' = l := Fin.ext h2
  have key := stored_lane m c t p y' (⟨l'.val / 8, by omega⟩ : Fin 128) (⟨l'.val % 8, Nat.mod_lt _ (by decide)⟩ : Fin 8)
  rw [Cert.Lattice.Relaid.lane_div_mod] at key
  exact key.trans (Cert.Lattice.Relaid.resultPlanes_apply _ _ _ _ _ _ _ l').symm

/-- Point t writes back block t of the result's planes. -/
theorem flushed_eq (c : Dev nD) (t : Fin cfg0.N) :
    (dats (F := Ideal) m 0 c).flushed 7 t = ((cfg0.win 7).blk t).view.read (Elt Ideal) (G m c) := by
  show (cfg0.win 7).cut (grid0.coords t) ((dats (F := Ideal) m 0 c).after 7 t) = _
  rw [after0_7]
  unfold outBlock
  rw [View.canon_unit_zero hz3]
  simp only [View.ld_unit_zero (S := S8x128x1024) hz3, View.ld_unit_zero (S := S1x128x1024) hz3,
    View.ld_unit_zero (S := S56x16) hz2, View.ld_unit_zero (S := S16) hz1, View.ld_unit_zero (S := S16x8) hz2,
    View.ld_unit_zero (S := S8) hz1]
  obtain ⟨-, -, -, -, -, -, -, -, -, e0, e1, e2⟩ := idx_facts t
  funext j
  show stored (F := Ideal) (slab m c t) (below m c t) (above m c t) (bW1 m c t) (bB1 m c t) (bW2 m c t) (bB2 m c t) j
    = G m c (((cfg0.win 7).blk t).view.emb j)
  refine stored_at m c t j _ ?_ ?_ ?_
  · show win0_7.index t (0 : Fin 3) * 8 + 1 * (j 0).val = 8 * t.val + (j 0).val; omega
  · show win0_7.index t (1 : Fin 3) * 128 + 1 * (j 1).val = (j 1).val; omega
  · show win0_7.index t (2 : Fin 3) * 1024 + 1 * (j 2).val = (j 2).val; omega

/-! ## The sixteen blocks tile the array -/

theorem mem_blk7 (t : Fin cfg0.N) (i : S128x128x1024.Idx) :
    i ∈ ((cfg0.win 7).blk t).view.set ↔ ∀ a : Fin 3, win0_7.index t a * S8x128x1024.size a ≤ (i a).val
      ∧ (i a).val < win0_7.index t a * S8x128x1024.size a + S8x128x1024.size a := by
  show i ∈ ((View.whole main_v1).slice (win0_7.rect t)).set ↔ _
  rw [View.set_slice_whole, Rect.mem_set_unit]
  exact Iff.rfl

/-- Plane z is in the block of point z / 8. -/
theorem cover7 (i : S128x128x1024.Idx) :
    ∃ t : Fin cfg0.N, (cfg0.win 7).flush t = true ∧ i ∈ ((cfg0.win 7).blk t).view.set := by
  have hi0 : (i 0).val < 128 := (i 0).isLt
  have hi1 : (i 1).val < 128 := (i 1).isLt
  have hi2 : (i 2).val < 1024 := (i 2).isLt
  obtain ⟨t, ht⟩ : ∃ t : Fin cfg0.N, t.val = (i 0).val / 8 :=
    ⟨⟨(i 0).val / 8, lt_of_lt_of_eq (show (i 0).val / 8 < 16 by omega) N_0.symm⟩, rfl⟩
  obtain ⟨-, -, -, -, -, -, -, -, -, e0, e1, e2⟩ := idx_facts t
  refine ⟨t, flush0_7 t, ?_⟩
  rw [mem_blk7]
  intro a
  match a with
  | ⟨0, _⟩ => show win0_7.index t (0 : Fin 3) * 8 ≤ (i 0).val ∧ (i 0).val < win0_7.index t (0 : Fin 3) * 8 + 8; omega
  | ⟨1, _⟩ => show win0_7.index t (1 : Fin 3) * 128 ≤ (i 1).val ∧ (i 1).val < win0_7.index t (1 : Fin 3) * 128 + 128; omega
  | ⟨2, _⟩ => show win0_7.index t (2 : Fin 3) * 1024 ≤ (i 2).val ∧ (i 2).val < win0_7.index t (2 : Fin 3) * 1024 + 1024; omega

/-- So after the last point the output array holds the result's planes. -/
theorem arr_final (c : Dev nD) : (dats (F := Ideal) m 0 c).arrAt 7 cfg0.N = G m c :=
  (dats (F := Ideal) m 0 c).arrAt_eq_of_cover 7 (G m c) (fun t _ => flushed_eq m c t) cover7

end Tiling

/-- The output window's array after the last point, re-laid as rows of 8, is the lattice update of the arguments. -/
theorem kernel_result (m : (ℓ : Loc nD τ sig) → Buf (Elt Ideal) ℓ) (c : Dev nD) :
    shapeCast S2097152x8 ((dats (F := Ideal) m 0 c).arrAt 7 cfg0.N) shapeCasts_S128x128x1024_S2097152x8
      = Cert.Lattice.update (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  rw [Tiling.arr_final m c]
  funext j
  obtain ⟨r, s, rfl⟩ : ∃ (r : Fin 2097152) (s : Fin 8), j = ix2 r s := ⟨j 0, j 1, eq_ix2 j⟩
  refine (shapeCast_apply (s := S128x128x1024) (t := S2097152x8) (Tiling.G m c) shapeCasts_S128x128x1024_S2097152x8 (ix2 r s)
    (ix3 (Cert.Lattice.zOf r) (Cert.Lattice.yOf r) (Cert.Lattice.lane (Cert.Lattice.xOf r) s)) ?_).trans ?_
  · rw [Shape.rowMajor_val_three, Shape.rowMajor_val_two]
    show (r.val / 16384 * 128 + r.val / 128 % 128) * 1024 + (r.val % 128 * 8 + s.val) = r.val * 8 + s.val
    omega
  · exact Cert.Lattice.Relaid.resultPlanes_lane _ _ _ _ _ _ _ _ s

end Cert.KernelIdeal.Stencil

end
-- ==== Proof.RefValue.lean ====
/-
  The reference computes the lattice update: its result array, read row by row, is `Cert.Lattice.update` of its
  arguments. The reference re-lays `states` as a 128 × 128 × 128 lattice of 8-vectors, forms the six periodic shifts
  by slicing and joining, joins the seven lattices along the last axis into 56 channels, and applies the two affine
  layers with `tanh` between them.
-/
import proofs.«423289_j38293928411137_4_alg».proof.Proof.Gen.ReferenceIdeal.Read
import proofs.«423289_j38293928411137_4_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

open Cert.Lattice

abbrev St := (⟨S2097152x8, .f32⟩ : BufTy).Contents (Elt Ideal)

/-- Two rows-and-channel indices with the same coordinates read the same number. -/
theorem st_at (x0 : St) (i : S2097152x8.Idx) (r : Fin 2097152) (s : Fin 8)
    (h0 : (i 0).val = r.val) (h1 : (i 1).val = s.val) : x0 i = x0 (ix2 r s) := by
  congr 1; funext a
  match a with
  | ⟨0, _⟩ => exact Fin.ext h0
  | ⟨1, _⟩ => exact Fin.ext h1

/-- The re-laid lattice at a point whose coordinates are `z, y, x, s` is `states` at the site's row. -/
theorem v0_val (x0 : St) (i : S128x128x128x8.Idx) (z y x : Fin 128) (s : Fin 8)
    (h0 : (i 0).val = z.val) (h1 : (i 1).val = y.val) (h2 : (i 2).val = x.val) (h3 : (i 3).val = s.val) :
    val_main_v0 (F := Ideal) x0 i = x0 (ix2 (site z y x) s) := by
  rw [val_main_v0_apply]
  have hs := s.isLt
  refine st_at x0 _ _ _ ?_ ?_
  · show ((((i 0).val * 128 + (i 1).val) * 128 + (i 2).val) * 8 + (i 3).val) / 8 = z.val * 16384 + y.val * 128 + x.val
    rw [h0, h1, h2, h3]; omega
  · show ((((i 0).val * 128 + (i 1).val) * 128 + (i 2).val) * 8 + (i 3).val) % 8 = s.val
    rw [h0, h1, h2, h3]; omega

/-- The lattice shifted so that each point reads its neighbour one step below along `x` (a one-wide slice joined
    before a 127-wide one), at a point. -/
theorem v1_at (x0 : St) (z y x : Fin 128) (s : Fin 8) :
    val_main_v1 (F := Ideal) x0 (ix4 z y x s) = x0 (ix2 (site z y (down x)) s) := by
  unfold val_main_v1
  have hlt := x.isLt
  by_cases hx : x.val < 1
  · refine (concatenate_pair_apply_left (t := S128x128x128x8) (s₁ := S128x128x1x8) (s₂ := S128x128x127x8) 2 _ _ _ (ix4 z y x s) rfl
      (ix4 z y (⟨0, by omega⟩ : Fin 1) s) (fun b => ?_)).trans ?_
    · match b with
      | ⟨0, _⟩ => rfl
      | ⟨1, _⟩ => rfl
      | ⟨2, _⟩ => show 0 = x.val; omega
      | ⟨3, _⟩ => rfl
    · rw [val_main_call0_v0_apply]
      exact v0_val x0 _ z y (down x) s rfl rfl (by show 127 + 0 = (x.val + 127) % 128; omega) rfl
  · refine (concatenate_pair_apply_right (t := S128x128x128x8) (s₁ := S128x128x1x8) (s₂ := S128x128x127x8) 2 _ _ _ (ix4 z y x s) rfl rfl
      (ix4 z y (⟨x.val - 1, by omega⟩ : Fin 127) s) (fun b hb => ?_) ?_).trans ?_
    · match b with
      | ⟨0, _⟩ => rfl
      | ⟨1, _⟩ => rfl
      | ⟨2, _⟩ => exact absurd rfl hb
      | ⟨3, _⟩ => rfl
    · show x.val - 1 + 1 = x.val; omega
    · rw [val_main_call0_v1_apply]
      exact v0_val x0 _ z y (down x) s rfl rfl (by show x.val - 1 = (x.val + 127) % 128; omega) rfl

/-- The lattice shifted so that each point reads its neighbour one step above along `x` (a 127-wide slice joined
    before a one-wide one), at a point. -/
theorem v2_at (x0 : St) (z y x : Fin 128) (s : Fin 8) :
    val_main_v2 (F := Ideal) x0 (ix4 z y x s) = x0 (ix2 (site z y (up x)) s) := by
  unfold val_main_v2
  have hlt := x.isLt
  by_cases hx : x.val < 127
  · refine (concatenate_pair_apply_left (t := S128x128x128x8) (s₁ := S128x128x127x8) (s₂ := S128x128x1x8) 2 _ _ _ (ix4 z y x s) rfl
      (ix4 z y (⟨x.val, hx⟩ : Fin 127) s) (fun b => ?_)).trans ?_
    · match b with
      | ⟨0, _⟩ => rfl
      | ⟨1, _⟩ => rfl
      | ⟨2, _⟩ => rfl
      | ⟨3, _⟩ => rfl
    · rw [val_main_call1_v0_apply]
      exact v0_val x0 _ z y (up x) s rfl rfl (by show 1 + x.val = (x.val + 1) % 128; omega) rfl
  · refine (concatenate_pair_apply_right (t := S128x128x128x8) (s₁ := S128x128x127x8) (s₂ := S128x128x1x8) 2 _ _ _ (ix4 z y x s) rfl rfl
      (ix4 z y (⟨x.val - 127, by omega⟩ : Fin 1) s) (fun b hb => ?_) ?_).trans ?_
    · match b with
      | ⟨0, _⟩ => rfl
      | ⟨1, _⟩ => rfl
      | ⟨2, _⟩ => exact absurd rfl hb
      | ⟨3, _⟩ => rfl
    · show x.val - 127 + 127 = x.val; omega
    · rw [val_main_call1_v1_apply]
      exact v0_val x0 _ z y (up x) s rfl rfl (by show x.val - 127 = (x.val + 1) % 128; omega) rfl

/-- The lattice shifted so that each point reads its neighbour one step below along `y` (a one-wide slice joined
    before a 127-wide one), at a point. -/
theorem v3_at (x0 : St) (z y x : Fin 128) (s : Fin 8) :
    val_main_v3 (F := Ideal) x0 (ix4 z y x s) = x0 (ix2 (site z (down y) x) s) := by
  unfold val_main_v3
  have hlt := y.isLt
  by_cases hx : y.val < 1
  · refine (concatenate_pair_apply_left (t := S128x128x128x8) (s₁ := S128x1x128x8) (s₂ := S128x127x128x8) 1 _ _ _ (ix4 z y x s) rfl
      (ix4 z (⟨0, by omega⟩ : Fin 1) x s) (fun b => ?_)).trans ?_
    · match b with
      | ⟨0, _⟩ => rfl
      | ⟨1, _⟩ => show 0 = y.val; omega
      | ⟨2, _⟩ => rfl
      | ⟨3, _⟩ => rfl
    · rw [val_main_call2_v0_apply]
      exact v0_val x0 _ z (down y) x s rfl (by show 127 + 0 = (y.val + 127) % 128; omega) rfl rfl
  · refine (concatenate_pair_apply_right (t := S128x128x128x8) (s₁ := S128x1x128x8) (s₂ := S128x127x128x8) 1 _ _ _ (ix4 z y x s) rfl rfl
      (ix4 z (⟨y.val - 1, by omega⟩ : Fin 127) x s) (fun b hb => ?_) ?_).trans ?_
    · match b with
      | ⟨0, _⟩ => rfl
      | ⟨1, _⟩ => exact absurd rfl hb
      | ⟨2, _⟩ => rfl
      | ⟨3, _⟩ => rfl
    · show y.val - 1 + 1 = y.val; omega
    · rw [val_main_call2_v1_apply]
      exact v0_val x0 _ z (down y) x s rfl (by show y.val - 1 = (y.val + 127) % 128; omega) rfl rfl

/-- The lattice shifted so that each point reads its neighbour one step above along `y` (a 127-wide slice joined
    before a one-wide one), at a point. -/
theorem v4_at (x0 : St) (z y x : Fin 128) (s : Fin 8) :
    val_main_v4 (F := Ideal) x0 (ix4 z y x s) = x0 (ix2 (site z (up y) x) s) := by
  unfold val_main_v4
  have hlt := y.isLt
  by_cases hx : y.val < 127
  · refine (concatenate_pair_apply_left (t := S128x128x128x8) (s₁ := S128x127x128x8) (s₂ := S128x1x128x8) 1 _ _ _ (ix4 z y x s) rfl
      (ix4 z (⟨y.val, hx⟩ : Fin 127) x s) (fun b => ?_)).trans ?_
    · match b with
      | ⟨0, _⟩ => rfl
      | ⟨1, _⟩ => rfl
      | ⟨2, _⟩ => rfl
      | ⟨3, _⟩ => rfl
    · rw [val_main_call3_v0_apply]
      exact v0_val x0 _ z (up y) x s rfl (by show 1 + y.val = (y.val + 1) % 128; omega) rfl rfl
  · refine (concatenate_pair_apply_right (t := S128x128x128x8) (s₁ := S128x127x128x8) (s₂ := S128x1x128x8) 1 _ _ _ (ix4 z y x s) rfl rfl
      (ix4 z (⟨y.val - 127, by omega⟩ : Fin 1) x s) (fun b hb => ?_) ?_).trans ?_
    · match b with
      | ⟨0, _⟩ => rfl
      | ⟨1, _⟩ => exact absurd rfl hb
      | ⟨2, _⟩ => rfl
      | ⟨3, _⟩ => rfl
    · show y.val - 127 + 127 = y.val; omega
    · rw [val_main_call3_v1_apply]
      exact v0_val x0 _ z (up y) x s rfl (by show y.val - 127 = (y.val + 1) % 128; omega) rfl rfl

/-- The lattice shifted so that each point reads its neighbour one step below along `z` (a one-wide slice joined
    before a 127-wide one), at a point. -/
theorem v5_at (x0 : St) (z y x : Fin 128) (s : Fin 8) :
    val_main_v5 (F := Ideal) x0 (ix4 z y x s) = x0 (ix2 (site (down z) y x) s) := by
  unfold val_main_v5
  have hlt := z.isLt
  by_cases hx : z.val < 1
  · refine (concatenate_pair_apply_left (t := S128x128x128x8) (s₁ := S1x128x128x8) (s₂ := S127x128x128x8) 0 _ _ _ (ix4 z y x s) rfl
      (ix4 (⟨0, by omega⟩ : Fin 1) y x s) (fun b => ?_)).trans ?_
    · match b with
      | ⟨0, _⟩ => show 0 = z.val; omega
      | ⟨1, _⟩ => rfl
      | ⟨2, _⟩ => rfl
      | ⟨3, _⟩ => rfl
    · rw [val_main_call4_v0_apply]
      exact v0_val x0 _ (down z) y x s (by show 127 + 0 = (z.val + 127) % 128; omega) rfl rfl rfl
  · refine (concatenate_pair_apply_right (t := S128x128x128x8) (s₁ := S1x128x128x8) (s₂ := S127x128x128x8) 0 _ _ _ (ix4 z y x s) rfl rfl
      (ix4 (⟨z.val - 1, by omega⟩ : Fin 127) y x s) (fun b hb => ?_) ?_).trans ?_
    · match b with
      | ⟨0, _⟩ => exact absurd rfl hb
      | ⟨1, _⟩ => rfl
      | ⟨2, _⟩ => rfl
      | ⟨3, _⟩ => rfl
    · show z.val - 1 + 1 = z.val; omega
    · rw [val_main_call4_v1_apply]
      exact v0_val x0 _ (down z) y x s (by show z.val - 1 = (z.val + 127) % 128; omega) rfl rfl rfl

/-- The lattice shifted so that each point reads its neighbour one step above along `z` (a 127-wide slice joined
    before a one-wide one), at a point. -/
theorem v6_at (x0 : St) (z y x : Fin 128) (s : Fin 8) :
    val_main_v6 (F := Ideal) x0 (ix4 z y x s) = x0 (ix2 (site (up z) y x) s) := by
  unfold val_main_v6
  have hlt := z.isLt
  by_cases hx : z.val < 127
  · refine (concatenate_pair_apply_left (t := S128x128x128x8) (s₁ := S127x128x128x8) (s₂ := S1x128x128x8) 0 _ _ _ (ix4 z y x s) rfl
      (ix4 (⟨z.val, hx⟩ : Fin 127) y x s) (fun b => ?_)).trans ?_
    · match b with
      | ⟨0, _⟩ => rfl
      | ⟨1, _⟩ => rfl
      | ⟨2, _⟩ => rfl
      | ⟨3, _⟩ => rfl
    · rw [val_main_call5_v0_apply]
      exact v0_val x0 _ (up z) y x s (by show 1 + z.val = (z.val + 1) % 128; omega) rfl rfl rfl
  · refine (concatenate_pair_apply_right (t := S128x128x128x8) (s₁ := S127x128x128x8) (s₂ := S1x128x128x8) 0 _ _ _ (ix4 z y x s) rfl rfl
      (ix4 (⟨z.val - 127, by omega⟩ : Fin 1) y x s) (fun b hb => ?_) ?_).trans ?_
    · match b with
      | ⟨0, _⟩ => exact absurd rfl hb
      | ⟨1, _⟩ => rfl
      | ⟨2, _⟩ => rfl
      | ⟨3, _⟩ => rfl
    · show z.val - 127 + 127 = z.val; omega
    · rw [val_main_call5_v1_apply]
      exact v0_val x0 _ (up z) y x s (by show z.val - 127 = (z.val + 1) % 128; omega) rfl rfl rfl

/-- The unshifted lattice at a point. -/
theorem v0_at (x0 : St) (z y x : Fin 128) (s : Fin 8) :
    val_main_v0 (F := Ideal) x0 (ix4 z y x s) = x0 (ix2 (site z y x) s) :=
  v0_val x0 _ z y x s rfl rfl rfl rfl

/-- The `k`-th gathered number, with the group `k / 8` named. -/
theorem gathered_of (st : St) (z y x : Fin 128) (k : Fin 56) (d : Fin 7) (hd : k.val / 8 = d.val) :
    gathered st z y x k = st (ix2 (source d z y x) (⟨k.val % 8, Nat.mod_lt _ (by decide)⟩ : Fin 8)) := by
  have e : (⟨k.val / 8, by omega⟩ : Fin 7) = d := Fin.ext hd
  unfold gathered
  rw [e]

/-- The seven lattices joined along the last axis into 56 channels, at a point: channel `k` is number `k % 8` of
    the `k / 8`-th lattice, which is the `k`-th gathered number of the site. -/
theorem v7_at (x0 : St) (z y x : Fin 128) (k : Fin 56) :
    val_main_v7 (F := Ideal) x0 (ix4 z y x k) = gathered x0 z y x k := by
  unfold val_main_v7
  have hk := k.isLt
  rcases (by omega : k.val / 8 = 0 ∨ k.val / 8 = 1 ∨ k.val / 8 = 2 ∨ k.val / 8 = 3 ∨ k.val / 8 = 4 ∨ k.val / 8 = 5 ∨ k.val / 8 = 6)
    with h | h | h | h | h | h | h
  · refine (concatenate_apply_piece (t := S128x128x128x56) 3 _ _ (ix4 z y x k) 0 (by show 0 < 7; omega) S128x128x128x8
      (val_main_v0 (F := Ideal) x0) rfl rfl 0 rfl
      (ix4 z y x (⟨k.val % 8, Nat.mod_lt _ (by decide)⟩ : Fin 8)) (fun b hb => ?_) ?_).trans ?_
    · match b with
      | ⟨0, _⟩ => rfl
      | ⟨1, _⟩ => rfl
      | ⟨2, _⟩ => rfl
      | ⟨3, _⟩ => exact absurd rfl hb
    · show 0 + k.val % 8 = k.val; omega
    · rw [gathered_of x0 z y x k 0 h, v0_at]; rfl
  · refine (concatenate_apply_piece (t := S128x128x128x56) 3 _ _ (ix4 z y x k) 1 (by show 1 < 7; omega) S128x128x128x8
      (val_main_v1 (F := Ideal) x0) rfl rfl 8 rfl
      (ix4 z y x (⟨k.val % 8, Nat.mod_lt _ (by decide)⟩ : Fin 8)) (fun b hb => ?_) ?_).trans ?_
    · match b with
      | ⟨0, _⟩ => rfl
      | ⟨1, _⟩ => rfl
      | ⟨2, _⟩ => rfl
      | ⟨3, _⟩ => exact absurd rfl hb
    · show 8 + k.val % 8 = k.val; omega
    · rw [gathered_of x0 z y x k 1 h, v1_at]; rfl
  · refine (concatenate_apply_piece (t := S128x128x128x56) 3 _ _ (ix4 z y x k) 2 (by show 2 < 7; omega) S128x128x128x8
      (val_main_v2 (F := Ideal) x0) rfl rfl 16 rfl
      (ix4 z y x (⟨k.val % 8, Nat.mod_lt _ (by decide)⟩ : Fin 8)) (fun b hb => ?_) ?_).trans ?_
    · match b with
      | ⟨0, _⟩ => rfl
      | ⟨1, _⟩ => rfl
      | ⟨2, _⟩ => rfl
      | ⟨3, _⟩ => exact absurd rfl hb
    · show 16 + k.val % 8 = k.val; omega
    · rw [gathered_of x0 z y x k 2 h, v2_at]; rfl
  · refine (concatenate_apply_piece (t := S128x128x128x56) 3 _ _ (ix4 z y x k) 3 (by show 3 < 7; omega) S128x128x128x8
      (val_main_v3 (F := Ideal) x0) rfl rfl 24 rfl
      (ix4 z y x (⟨k.val % 8, Nat.mod_lt _ (by decide)⟩ : Fin 8)) (fun b hb => ?_) ?_).trans ?_
    · match b with
      | ⟨0, _⟩ => rfl
      | ⟨1, _⟩ => rfl
      | ⟨2, _⟩ => rfl
      | ⟨3, _⟩ => exact absurd rfl hb
    · show 24 + k.val % 8 = k.val; omega
    · rw [gathered_of x0 z y x k 3 h, v3_at]; rfl
  · refine (concatenate_apply_piece (t := S128x128x128x56) 3 _ _ (ix4 z y x k) 4 (by show 4 < 7; omega) S128x128x128x8
      (val_main_v4 (F := Ideal) x0) rfl rfl 32 rfl
      (ix4 z y x (⟨k.val % 8, Nat.mod_lt _ (by decide)⟩ : Fin 8)) (fun b hb => ?_) ?_).trans ?_
    · match b with
      | ⟨0, _⟩ => rfl
      | ⟨1, _⟩ => rfl
      | ⟨2, _⟩ => rfl
      | ⟨3, _⟩ => exact absurd rfl hb
    · show 32 + k.val % 8 = k.val; omega
    · rw [gathered_of x0 z y x k 4 h, v4_at]; rfl
  · refine (concatenate_apply_piece (t := S128x128x128x56) 3 _ _ (ix4 z y x k) 5 (by show 5 < 7; omega) S128x128x128x8
      (val_main_v5 (F := Ideal) x0) rfl rfl 40 rfl
      (ix4 z y x (⟨k.val % 8, Nat.mod_lt _ (by decide)⟩ : Fin 8)) (fun b hb => ?_) ?_).trans ?_
    · match b with
      | ⟨0, _⟩ => rfl
      | ⟨1, _⟩ => rfl
      | ⟨2, _⟩ => rfl
      | ⟨3, _⟩ => exact absurd rfl hb
    · show 40 + k.val % 8 = k.val; omega
    · rw [gathered_of x0 z y x k 5 h, v5_at]; rfl
  · refine (concatenate_apply_piece (t := S128x128x128x56) 3 _ _ (ix4 z y x k) 6 (by show 6 < 7; omega) S128x128x128x8
      (val_main_v6 (F := Ideal) x0) rfl rfl 48 rfl
      (ix4 z y x (⟨k.val % 8, Nat.mod_lt _ (by decide)⟩ : Fin 8)) (fun b hb => ?_) ?_).trans ?_
    · match b with
      | ⟨0, _⟩ => rfl
      | ⟨1, _⟩ => rfl
      | ⟨2, _⟩ => rfl
      | ⟨3, _⟩ => exact absurd rfl hb
    · show 48 + k.val % 8 = k.val; omega
    · rw [gathered_of x0 z y x k 6 h, v6_at]; rfl

abbrev W1 := (⟨S56x16, .f32⟩ : BufTy).Contents (Elt Ideal)
abbrev B1 := (⟨S16, .f32⟩ : BufTy).Contents (Elt Ideal)
abbrev W2 := (⟨S16x8, .f32⟩ : BufTy).Contents (Elt Ideal)
abbrev B2 := (⟨S8, .f32⟩ : BufTy).Contents (Elt Ideal)

/-- The first matrix product at a point: the gathered numbers against a column of `W1`. -/
theorem v8_at (x0 : St) (x1 : W1) (z y x : Fin 128) (h : Fin 16) :
    val_main_v8 (F := Ideal) x0 x1 (ix4 z y x h) = ∑ k : Fin 56, gathered x0 z y x k * x1 (ix2 k h) := by
  rw [val_main_v8_apply]
  refine Finset.sum_congr rfl fun k _ => ?_
  have el : lidx_main_v8 (ix4 z y x h) k = ix4 z y x k := funext fun a => by
    match a with
    | ⟨0, _⟩ => rfl
    | ⟨1, _⟩ => rfl
    | ⟨2, _⟩ => rfl
    | ⟨3, _⟩ => rfl
  have er : ridx_main_v8 (ix4 z y x h) k = ix2 k h := funext fun a => by
    match a with
    | ⟨0, _⟩ => rfl
    | ⟨1, _⟩ => rfl
  rw [el, er, v7_at]

/-- The first bias, broadcast over the lattice, at a point. -/
theorem v10_at (x2 : B1) (z y x : Fin 128) (h : Fin 16) :
    val_main_v10 (F := Ideal) x2 (ix4 z y x h) = x2 (ix1 h) := by
  rw [val_main_v10_apply, val_main_v9_apply]
  have e : idx_main_v9 (idx_main_v10 (ix4 z y x h)) = ix1 h := funext fun a => by
    match a with
    | ⟨0, _⟩ => rfl
  rw [e]

/-- The hidden layer at a point. -/
theorem v12_at (x0 : St) (x1 : W1) (x2 : B1) (z y x : Fin 128) (h : Fin 16) :
    val_main_v12 (F := Ideal) x0 x1 x2 (ix4 z y x h) = hidden x0 x1 x2 z y x h := by
  rw [val_main_v12_apply, val_main_v11_apply, v8_at, v10_at]
  rfl

/-- The second matrix product at a point: the hidden layer against a column of `W2`. -/
theorem v13_at (x0 : St) (x1 : W1) (x2 : B1) (x3 : W2) (z y x : Fin 128) (s : Fin 8) :
    val_main_v13 (F := Ideal) x0 x1 x2 x3 (ix4 z y x s) = ∑ h : Fin 16, hidden x0 x1 x2 z y x h * x3 (ix2 h s) := by
  rw [val_main_v13_apply]
  refine Finset.sum_congr rfl fun k _ => ?_
  have el : lidx_main_v13 (ix4 z y x s) k = ix4 z y x k := funext fun a => by
    match a with
    | ⟨0, _⟩ => rfl
    | ⟨1, _⟩ => rfl
    | ⟨2, _⟩ => rfl
    | ⟨3, _⟩ => rfl
  have er : ridx_main_v13 (ix4 z y x s) k = ix2 k s := funext fun a => by
    match a with
    | ⟨0, _⟩ => rfl
    | ⟨1, _⟩ => rfl
  rw [el, er, v12_at]

/-- The second bias, broadcast over the lattice, at a point. -/
theorem v15_at (x4 : B2) (z y x : Fin 128) (s : Fin 8) :
    val_main_v15 (F := Ideal) x4 (ix4 z y x s) = x4 (ix1 s) := by
  rw [val_main_v15_apply, val_main_v14_apply]
  have e : idx_main_v14 (idx_main_v15 (ix4 z y x s)) = ix1 s := funext fun a => by
    match a with
    | ⟨0, _⟩ => rfl
  rw [e]

/-- The result lattice at a point. -/
theorem v16_at (x0 : St) (x1 : W1) (x2 : B1) (x3 : W2) (x4 : B2) (z y x : Fin 128) (s : Fin 8) :
    val_main_v16 (F := Ideal) x0 x1 x2 x3 x4 (ix4 z y x s) = result x0 x1 x2 x3 x4 z y x s := by
  rw [val_main_v16_apply, v13_at, v15_at]
  rfl

/-- The result array at row `r`, channel `s`: the result lattice at the row's site. -/
theorem v17_at (x0 : St) (x1 : W1) (x2 : B1) (x3 : W2) (x4 : B2) (r : Fin 2097152) (s : Fin 8) :
    val_main_v17 (F := Ideal) x0 x1 x2 x3 x4 (ix2 r s) = result x0 x1 x2 x3 x4 (zOf r) (yOf r) (xOf r) s := by
  rw [val_main_v17_apply]
  have hr := r.isLt
  have hs := s.isLt
  have e : idx_main_v17 (ix2 r s) = ix4 (zOf r) (yOf r) (xOf r) s := funext fun a => by
    match a with
    | ⟨0, _⟩ => exact Fin.ext (by show (r.val * 8 + s.val) / 131072 = r.val / 16384; omega)
    | ⟨1, _⟩ => exact Fin.ext (by show (r.val * 8 + s.val) / 1024 % 128 = r.val / 128 % 128; omega)
    | ⟨2, _⟩ => exact Fin.ext (by show (r.val * 8 + s.val) / 8 % 128 = r.val % 128; omega)
    | ⟨3, _⟩ => exact Fin.ext (by show (r.val * 8 + s.val) % 8 = s.val; omega)
  rw [e, v16_at]

/-- The reference run's result term, at `Ideal`, is the lattice update of the argument arrays. -/
theorem reference_is_update (m : (ℓ : Loc nD τ sig) → Buf (Elt Ideal) ℓ) (c : Dev nD) :
    Cert.ReferenceIdeal.Value.res_main_v17 (F := Ideal) m c
      = Cert.Lattice.update (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  rw [val_main_v17_eq]
  funext j
  have h := v17_at (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (j 0) (j 1)
  have e : j = ix2 (j 0) (j 1) := eq_ix2 j
  exact (congrArg (val_main_v17 (F := Ideal) _ _ _ _ _) e).trans h

end Cert.ReferenceIdeal.RefValue

end
-- ==== Proof.lean ====
/-
  The proof of `Cert.Claim`: a periodic 128 × 128 × 128 lattice of 8-vectors, each site updated by a two-layer
  network of its own state and its six neighbours' (56 numbers in, 16 hidden with `tanh`, 8 out).

  The kernel walks the lattice in 16 slabs of 8 planes; at each it reads the slab and the two planes beside it out of
  ONE re-laid copy of `states`, forms the x- and y-neighbours by rotating lanes and rows, the z-neighbours by moving
  the slab one plane against the neighbouring plane, and adds seven 8-channel products where the reference forms one
  56-channel product of the joined shifts. Over the extended reals the two are the same sum, regrouped: only
  associativity and commutativity of addition are used, so the precondition is never opened.

  * Proof/Spec.lean — the update as one function of the arguments, row by row (`Cert.Lattice.update`), and what one
    slab computes.
  * Proof/RefValue.lean — the reference's result is `update`.
  * Proof/KI/Body.lean, Data.lean, Launch.lean — the idealized kernel's run: the body's triple, the proof data (the
    shared array's share dealt among its three windows), the launch; Proof/KI/StoredAt.lean, Result.lean — the value
    it leaves is `update`. Proof/K/ — the same run for the kernel as printed, which the frame claim asks.
  `preserves` has nothing to state: the idealization rewrote no operation.
-/
import proofs.«423289_j38293928411137_4_alg».proof.Defs
import proofs.«423289_j38293928411137_4_alg».proof.Proof.Gen.Kernel
import proofs.«423289_j38293928411137_4_alg».proof.Proof.Gen.KernelIdeal
import proofs.«423289_j38293928411137_4_alg».proof.Proof.Gen.ReferenceIdeal
import proofs.«423289_j38293928411137_4_alg».proof.Proof.Gen.Pre_finite_inputs
import proofs.«423289_j38293928411137_4_alg».proof.Proof.Gen.ReferenceIdeal.Read
import proofs.«423289_j38293928411137_4_alg».proof.Proof.K.Launch
import proofs.«423289_j38293928411137_4_alg».proof.Proof.KI.Launch
import proofs.«423289_j38293928411137_4_alg».proof.Proof.KI.Result
import proofs.«423289_j38293928411137_4_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs, and leaves its arguments as launched. -/
theorem frame_kernel : Cert.frame_Kernel := fun m ρ _ =>
  (θ_run Cert.Kernel.defs _ _).mono (fun _ h c => (h c).2) (Cert.Kernel.Stencil.run_main (F := Bits) m ρ)

/-- So does its idealization. -/
theorem frame_kernelIdeal : Cert.frame_KernelIdeal := fun m ρ _ =>
  (θ_run Cert.KernelIdeal.defs _ _).mono (fun _ h c => (h c).2) (Cert.KernelIdeal.Stencil.run_main (F := Ideal) m ρ)

/-- And the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the lattice update of those arguments. -/
theorem algebraic : Cert.algebraic_KernelIdeal_ReferenceIdeal := by
  intro m ρ m' ρ' _ hagree
  refine ⟨fun c => Cert.Lattice.update
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Stencil.kernel_result m c), (h c).2⟩)
      (Cert.KernelIdeal.Stencil.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.reference_is_update, (hagree c).1, (hagree c).2.1, (hagree c).2.2.1,
      (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
